-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S8192x256 .f32) (main_arg1 : FVec F S8192x8192 .f32) (main_arg2 : FVec F S256x128 .f32) (main_arg3 : FVec F S128 .f32) (main_arg4 : FVec F S128x128 .f32) (main_arg5 : FVec F S128 .f32) (main_arg6 : FVec F S128x1 .f32) (main_arg7 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S1x128 : Shape := ⟨2, ![1, 128]⟩
abbrev S8192x128 : Shape := ⟨2, ![8192, 128]⟩
abbrev S2048x256 : Shape := ⟨2, ![2048, 256]⟩
abbrev S2048x128 : Shape := ⟨2, ![2048, 128]⟩
abbrev S2048x2048 : Shape := ⟨2, ![2048, 2048]⟩
abbrev S1x1 : Shape := ⟨2, ![1, 1]⟩
abbrev S8192x1 : Shape := ⟨2, ![8192, 1]⟩
abbrev S2048x1 : Shape := ⟨2, ![2048, 1]⟩

abbrev nBuf : Space → Nat
  | .hbm => 18
  | .vmem => 32
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S_, .f32⟩
  | .hbm, ⟨9, _⟩ => ⟨S1x128, .f32⟩
  | .hbm, ⟨10, _⟩ => ⟨S8192x128, .f32⟩
  | .hbm, ⟨11, _⟩ => ⟨S1x128, .f32⟩
  | .hbm, ⟨12, _⟩ => ⟨S8192x128, .f32⟩
  | .hbm, ⟨13, _⟩ => ⟨S8192x128, .f32⟩
  | .hbm, ⟨14, _⟩ => ⟨S1x128, .f32⟩
  | .hbm, ⟨15, _⟩ => ⟨S8192x128, .f32⟩
  | .hbm, ⟨16, _⟩ => ⟨S1x1, .f32⟩
  | .hbm, ⟨17, _⟩ => ⟨S8192x1, .f32⟩
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S2048x2048, .f32⟩
  | .local _ .vmem, ⟨7, _⟩ => ⟨S2048x2048, .f32⟩
  | .local _ .vmem, ⟨8, _⟩ => ⟨S2048x128, .f32⟩
  | .local _ .vmem, ⟨9, _⟩ => ⟨S2048x128, .f32⟩
  | .local _ .vmem, ⟨10, _⟩ => ⟨S1x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S128x128, .f32⟩
  | .local _ .vmem, ⟨16, _⟩ => ⟨S1x128, .f32⟩
  | .local _ .vmem, ⟨17, _⟩ => ⟨S2048x128, .f32⟩
  | .local _ .vmem, ⟨18, _⟩ => ⟨S2048x128, .f32⟩
  | .local _ .vmem, ⟨19, _⟩ => ⟨S2048x2048, .f32⟩
  | .local _ .vmem, ⟨20, _⟩ => ⟨S2048x2048, .f32⟩
  | .local _ .vmem, ⟨21, _⟩ => ⟨S2048x128, .f32⟩
  | .local _ .vmem, ⟨22, _⟩ => ⟨S2048x128, .f32⟩
  | .local _ .vmem, ⟨23, _⟩ => ⟨S1x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S128x1, .f32⟩
  | .local _ .vmem, ⟨29, _⟩ => ⟨S1x1, .f32⟩
  | .local _ .vmem, ⟨30, _⟩ => ⟨S2048x1, .f32⟩
  | .local _ .vmem, ⟨31, _⟩ => ⟨S2048x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2048x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S1x128 : S_.BroadcastsInDim S1x128 (![] : Fin 0 → Fin S1x128.rank)
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S128_S1x128 : S128.ShapeCasts S1x128
  inb_S2048x2048_S2048x2048_0_0 : ∀ a, (![0, 0] : Fin 2 → Nat) a + S2048x2048.size a ≤ S2048x2048.size a
  h_S2048x2048 : 0 < S2048x2048.numel
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x256_S256x128_S2048x128_1_0_0_1_n_n_wf : DotDims.WF S2048x256 S256x128 S2048x128 [1] [0] [0] [1] [] []
  dot_S2048x2048_S2048x128_S2048x128_1_0_0_1_n_n_wf : DotDims.WF S2048x2048 S2048x128 S2048x128 [1] [0] [0] [1] [] []
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x128.size a
  hwx0_3 : ∀ i : grid0.Coords, EltTy.bits .f32 = 32 ∨ (Rect.block (s := S8192x128) S2048x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .f32 = 32 ∨ (Rect.block (s := S8192x8192) S2048x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .f32 = 32 ∨ (Rect.block (s := S8192x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S8192x128.size a
  hwx1_3 : ∀ i : grid1.Coords, EltTy.bits .f32 = 32 ∨ (Rect.block (s := S8192x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S8192x128.size a
  hwx2_0 : ∀ i : grid2.Coords, EltTy.bits .f32 = 32 ∨ (Rect.block (s := S8192x128) S2048x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S8192x128.size a
  hwx2_3 : ∀ i : grid2.Coords, EltTy.bits .f32 = 32 ∨ (Rect.block (s := S8192x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S8192x8192.size a
  hwx3_0 : ∀ i : grid3.Coords, EltTy.bits .f32 = 32 ∨ (Rect.block (s := S8192x8192) S2048x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S8192x128.size a
  hwx3_1 : ∀ i : grid3.Coords, EltTy.bits .f32 = 32 ∨ (Rect.block (s := S8192x128) S2048x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x128.size a ≤ S8192x128.size a
  hwx3_3 : ∀ i : grid3.Coords, EltTy.bits .f32 = 32 ∨ (Rect.block (s := S8192x128) S2048x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S8192x128.size a
  hwx4_0 : ∀ i : grid4.Coords, EltTy.bits .f32 = 32 ∨ (Rect.block (s := S8192x128) S2048x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x1.size a ≤ S8192x1.size a
  hwx4_3 : ∀ i : grid4.Coords, EltTy.bits .f32 = 32 ∨ (Rect.block (s := S8192x1) S2048x1.size (cc4_transform_3 i) (hinb4_3 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S2048x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v6) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v7) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v8) S2048x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S8192x128 : Shape := ⟨2, ![8192, 128]⟩
abbrev S1x128 : Shape := ⟨2, ![1, 128]⟩
abbrev S_ : Shape := ⟨0, ![]⟩
abbrev S8192x1 : Shape := ⟨2, ![8192, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S8192x128, .f32⟩
  | .hbm, ⟨9, _⟩ => ⟨S8192x128, .f32⟩
  | .hbm, ⟨10, _⟩ => ⟨S1x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S1x128, .f32⟩
  | .hbm, ⟨19, _⟩ => ⟨S8192x128, .f32⟩
  | .hbm, ⟨20, _⟩ => ⟨S8192x128, .f32⟩
  | .hbm, ⟨21, _⟩ => ⟨S_, .f32⟩
  | .hbm, ⟨22, _⟩ => ⟨S8192x128, .f32⟩
  | .hbm, ⟨23, _⟩ => ⟨S8192x128, .f32⟩
  | .hbm, ⟨24, _⟩ => ⟨S8192x1, .f32⟩
  | .hbm, ⟨25, _⟩ => ⟨S1x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  dot_S8192x128_S128x1_S8192x1_1_0_0_1_n_n_wf : DotDims.WF S8192x128 S128x1 S8192x1 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

class Facts : Prop extends Facts₀ where

variable [Facts]
-- ==== Proof.Spec.lean ====
/-
  The network both programs compute, stated once over the extended reals and independently of either program.

  A two-layer graph convolution with a sigmoid head on n = 8192 nodes:
      Y₁ = X · W₁                      (8192×256 times 256×128)
      H₁ = max (A · Y₁ + b₁, 0)        (8192×8192 times 8192×128, a bias row, the positive part)
      Y₂ = H₁ · W₂
      H₂ = max (A · Y₂ + b₂, 0)
      out = 1 / (1 + e^{-(H₂ · W_f + b_f)})
  Every product is the plain sum over the contracted axis; nothing here needs the entries to be finite: a sum over
  a finite axis in a commutative monoid may be taken in any grouping, and that is the only law the two programs
  differ by.
-/
import Idealize.ShloMosaic.PureOps.Ideal
import Idealize.ShloMosaic.Lib.ValueIdx

noncomputable section

open scoped BigOperators

namespace Cert.Gcn

open Idealize.ShloMosaic Idealize.ShloMosaic.ValueIdx

/-- A matrix of extended reals with `r` rows and `c` columns, as the programs' rank-2 arrays are. -/
abbrev Mat (r c : Nat) : Type := (⟨2, ![r, c]⟩ : Shape).Idx → EReal
/-- A vector of extended reals of length `n`, as the programs' rank-1 arrays are. -/
abbrev Row (n : Nat) : Type := (⟨1, ![n]⟩ : Shape).Idx → EReal

/-- The matrix product: entry (p, q) is the sum over the contracted axis of row p of `x` against column q of `w`. -/
def dense {r k c : Nat} (x : Mat r k) (w : Mat k c) : Mat r c :=
  fun i => ∑ j : Fin k, x (ix2 (i 0) j) * w (ix2 j (i 1))

theorem dense_apply {r k c : Nat} (x : Mat r k) (w : Mat k c) (p : Fin r) (q : Fin c) :
    dense x w (ix2 p q) = ∑ j : Fin k, x (ix2 p j) * w (ix2 j q) := rfl

/-- The matrix product with a one-row array added to every row (the form a kernel computes: the bias is staged as a
    1×c array). -/
def denseRow {r k c : Nat} (x : Mat r k) (w : Mat k c) (z : Mat 1 c) : Mat r c :=
  fun i => dense x w i + z (ix2 0 (i 1))

theorem denseRow_apply {r k c : Nat} (x : Mat r k) (w : Mat k c) (z : Mat 1 c) (p : Fin r) (q : Fin c) :
    denseRow x w z (ix2 p q) = (∑ j : Fin k, x (ix2 p j) * w (ix2 j q)) + z (ix2 0 q) := rfl

/-- Adding the zero row changes nothing: `x + 0 = x` on the extended reals, infinite entries included. -/
theorem denseRow_zero {r k c : Nat} (x : Mat r k) (w : Mat k c) (z : Mat 1 c) (hz : ∀ q, z (ix2 0 q) = 0) :
    denseRow x w z = dense x w := by
  funext i
  obtain ⟨p, q, rfl⟩ : ∃ (p : Fin r) (q : Fin c), i = ix2 p q := ⟨i 0, i 1, eq_ix2 i⟩
  show dense x w (ix2 p q) + z (ix2 0 q) = dense x w (ix2 p q)
  rw [hz, add_zero]

/-- One graph-convolution layer with its bias staged as a 1×h array: the positive part of `a · y + b`. -/
def aggRow {n h : Nat} (a : Mat n n) (y : Mat n h) (b : Mat 1 h) : Mat n h :=
  fun i => max (dense a y i + b (ix2 0 (i 1))) 0

theorem aggRow_apply {n h : Nat} (a : Mat n n) (y : Mat n h) (b : Mat 1 h) (p : Fin n) (q : Fin h) :
    aggRow a y b (ix2 p q) = max ((∑ j : Fin n, a (ix2 p j) * y (ix2 j q)) + b (ix2 0 q)) 0 := rfl

/-- The same layer with the bias as the vector the reference takes. -/
def agg {n h : Nat} (a : Mat n n) (y : Mat n h) (b : Row h) : Mat n h :=
  fun i => max (dense a y i + b (ix1 (i 1))) 0

theorem agg_apply {n h : Nat} (a : Mat n n) (y : Mat n h) (b : Row h) (p : Fin n) (q : Fin h) :
    agg a y b (ix2 p q) = max ((∑ j : Fin n, a (ix2 p j) * y (ix2 j q)) + b (ix1 q)) 0 := rfl

theorem aggRow_eq_agg {n h : Nat} (a : Mat n n) (y : Mat n h) (b2 : Mat 1 h) (b : Row h)
    (hb : ∀ q, b2 (ix2 0 q) = b (ix1 q)) : aggRow a y b2 = agg a y b := by
  funext i
  obtain ⟨p, q, rfl⟩ : ∃ (p : Fin n) (q : Fin h), i = ix2 p q := ⟨i 0, i 1, eq_ix2 i⟩
  show max (dense a y (ix2 p q) + b2 (ix2 0 q)) 0 = max (dense a y (ix2 p q) + b (ix1 q)) 0
  rw [hb]

/-- The sigmoid head with its bias staged as a 1×1 array. -/
def headRow {n h : Nat} (x : Mat n h) (w : Mat h 1) (b : Mat 1 1) : Mat n 1 :=
  fun i => Ideal.logistic (dense x w i + b (ix2 0 0))

theorem headRow_apply {n h : Nat} (x : Mat n h) (w : Mat h 1) (b : Mat 1 1) (p : Fin n) (q : Fin 1) :
    headRow x w b (ix2 p q) = Ideal.logistic ((∑ j : Fin h, x (ix2 p j) * w (ix2 j q)) + b (ix2 0 0)) := rfl

/-- The sigmoid head with the bias as the length-one vector the reference takes. -/
def head {n h : Nat} (x : Mat n h) (w : Mat h 1) (b : Row 1) : Mat n 1 :=
  fun i => Ideal.logistic (dense x w i + b (ix1 0))

theorem head_apply {n h : Nat} (x : Mat n h) (w : Mat h 1) (b : Row 1) (p : Fin n) (q : Fin 1) :
    head x w b (ix2 p q) = Ideal.logistic ((∑ j : Fin h, x (ix2 p j) * w (ix2 j q)) + b (ix1 0)) := rfl

theorem headRow_eq_head {n h : Nat} (x : Mat n h) (w : Mat h 1) (b2 : Mat 1 1) (b : Row 1)
    (hb : b2 (ix2 0 0) = b (ix1 0)) : headRow x w b2 = head x w b := by
  funext i
  show Ideal.logistic (dense x w i + b2 (ix2 0 0)) = Ideal.logistic (dense x w i + b (ix1 0))
  rw [hb]

/-- The whole network as ONE function of the eight argument arrays. -/
def net (X : Mat 8192 256) (A : Mat 8192 8192) (W1 : Mat 256 128) (b1 : Row 128) (W2 : Mat 128 128) (b2 : Row 128)
    (Wf : Mat 128 1) (bf : Row 1) : Mat 8192 1 :=
  head (agg A (dense (agg A (dense X W1) b1) W2) b2) Wf bf

/-- The sigmoid as the quotient the reference spells out: `1 / (1 + e^{-x})`, by definition of the ideal logistic. -/
theorem logistic_eq (x : EReal) : Ideal.logistic x = Ideal.div 1 (1 + Ideal.exp (-x)) := rfl

end Cert.Gcn

end
-- ==== Proof.Boundaries.lean ====
/-
  What each buffer the five regions read holds at each segment boundary of @main, one boundary back.

  The contents at the boundaries are a fold from the launch memory. A host stretch changes only the buffers its
  operations write (here: the zero scalar and zero row, and b₁, b₂, b_f laid out as rows); a region changes only its
  output array and leaves its input arrays as it found them. Each lemma below is one such step for one buffer:
  kept across a host stretch, kept across a region that does not touch it, kept as an input window of a region,
  or written -- by a region (its output array after the last grid point) or by a reshape of a launch array.
-/
import proofs.«101808_j25486335935216_1_alg».proof.Defs
import proofs.«101808_j25486335935216_1_alg».proof.Proof.Gen.KernelIdeal.Frame
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Chain

open Cert.KernelIdeal Cert.KernelIdeal.Gen

variable (m : (ℓ : Loc nD τ sig) → Buf (Elt Ideal) ℓ) (ρ : Dev nD → PrngReg)

/-- No operation of a host stretch writes the buffer, so it keeps its contents across the stretch. -/
local macro "host_keep" b:term : tactic => `(tactic| (
  refine StableHlo.after_of_forall_not_mem (b := Proc.devRef .tc $b) _ _ (List.forall_iff_forall_mem.mp ?_)
  simp only [hostOps0, hostOps1, hostOps3, hostOps4, List.flatten_cons, List.flatten_nil, List.append_nil, List.cons_append,
    List.nil_append, List.Forall, StableHlo.nullary_writes, StableHlo.unary_writes, StableHlo.binary_writes,
    StableHlo.reshape_writes, Finset.mem_singleton]
  repeat' apply And.intro
  all_goals exact StableHlo.devRef_ne_of_ne (by decide)))

/-! ## Across the first host stretch (it writes the zero scalar and the zero row) -/

theorem W1_arg0 (c : Dev nD) : W1 m ρ c (Proc.devRef .tc main_arg0) = m ((c : Thread nD τ).loc main_arg0) :=
  (show W1 m ρ c (Proc.devRef .tc main_arg0) = W0 m ρ c (Proc.devRef .tc main_arg0) by host_keep main_arg0).trans rfl

theorem W1_arg1 (c : Dev nD) : W1 m ρ c (Proc.devRef .tc main_arg1) = m ((c : Thread nD τ).loc main_arg1) :=
  (show W1 m ρ c (Proc.devRef .tc main_arg1) = W0 m ρ c (Proc.devRef .tc main_arg1) by host_keep main_arg1).trans rfl

theorem W1_arg2 (c : Dev nD) : W1 m ρ c (Proc.devRef .tc main_arg2) = m ((c : Thread nD τ).loc main_arg2) :=
  (show W1 m ρ c (Proc.devRef .tc main_arg2) = W0 m ρ c (Proc.devRef .tc main_arg2) by host_keep main_arg2).trans rfl

theorem W1_arg3 (c : Dev nD) : W1 m ρ c (Proc.devRef .tc main_arg3) = m ((c : Thread nD τ).loc main_arg3) :=
  (show W1 m ρ c (Proc.devRef .tc main_arg3) = W0 m ρ c (Proc.devRef .tc main_arg3) by host_keep main_arg3).trans rfl

theorem W1_arg4 (c : Dev nD) : W1 m ρ c (Proc.devRef .tc main_arg4) = m ((c : Thread nD τ).loc main_arg4) :=
  (show W1 m ρ c (Proc.devRef .tc main_arg4) = W0 m ρ c (Proc.devRef .tc main_arg4) by host_keep main_arg4).trans rfl

theorem W1_arg5 (c : Dev nD) : W1 m ρ c (Proc.devRef .tc main_arg5) = m ((c : Thread nD τ).loc main_arg5) :=
  (show W1 m ρ c (Proc.devRef .tc main_arg5) = W0 m ρ c (Proc.devRef .tc main_arg5) by host_keep main_arg5).trans rfl

theorem W1_arg6 (c : Dev nD) : W1 m ρ c (Proc.devRef .tc main_arg6) = m ((c : Thread nD τ).loc main_arg6) :=
  (show W1 m ρ c (Proc.devRef .tc main_arg6) = W0 m ρ c (Proc.devRef .tc main_arg6) by host_keep main_arg6).trans rfl

theorem W1_arg7 (c : Dev nD) : W1 m ρ c (Proc.devRef .tc main_arg7) = m ((c : Thread nD τ).loc main_arg7) :=
  (show W1 m ρ c (Proc.devRef .tc main_arg7) = W0 m ρ c (Proc.devRef .tc main_arg7) by host_keep main_arg7).trans rfl

/-- The zero row every small product adds: the zero scalar broadcast to 1×128. -/
theorem W1_v0 (c : Dev nD) : W1 m ρ c (Proc.devRef .tc main_v0)
    = broadcastInDim S1x128 ![] bcast_S_S1x128 (constant (F := Ideal) S_ .f32 0x00000000#32) := by
  show StableHlo.after hostOps0 (W0 m ρ c) (Proc.devRef .tc main_v0) = _
  after_results

/-! ## Across region 0 (it reads X, W₁ and the zero row, and writes Y₁) -/

theorem W2_arg1 (c : Dev nD) : W2 m ρ c (Proc.devRef .tc main_arg1) = W1 m ρ c (Proc.devRef .tc main_arg1) :=
  W2_of_ne m ρ c main_arg1 (by decide)

theorem W2_arg3 (c : Dev nD) : W2 m ρ c (Proc.devRef .tc main_arg3) = W1 m ρ c (Proc.devRef .tc main_arg3) :=
  W2_of_ne m ρ c main_arg3 (by decide)

theorem W2_arg4 (c : Dev nD) : W2 m ρ c (Proc.devRef .tc main_arg4) = W1 m ρ c (Proc.devRef .tc main_arg4) :=
  W2_of_ne m ρ c main_arg4 (by decide)

theorem W2_arg5 (c : Dev nD) : W2 m ρ c (Proc.devRef .tc main_arg5) = W1 m ρ c (Proc.devRef .tc main_arg5) :=
  W2_of_ne m ρ c main_arg5 (by decide)

theorem W2_arg6 (c : Dev nD) : W2 m ρ c (Proc.devRef .tc main_arg6) = W1 m ρ c (Proc.devRef .tc main_arg6) :=
  W2_of_ne m ρ c main_arg6 (by decide)

theorem W2_arg7 (c : Dev nD) : W2 m ρ c (Proc.devRef .tc main_arg7) = W1 m ρ c (Proc.devRef .tc main_arg7) :=
  W2_of_ne m ρ c main_arg7 (by decide)

theorem W2_v0 (c : Dev nD) : W2 m ρ c (Proc.devRef .tc main_v0) = W1 m ρ c (Proc.devRef .tc main_v0) :=
  (W2_arr m ρ c 2).trans (((dat0 (V1 m ρ) c).arrAt_in 2 rfl _).trans (A_eq0 (V1 m ρ) c 2))

theorem W2_v1 (c : Dev nD) : W2 m ρ c (Proc.devRef .tc main_v1) = (dat0 (V1 m ρ) c).arrAt 3 cfg0.N :=
  W2_arr m ρ c 3

/-! ## Across the second host stretch (it lays b₁ out as a 1×128 row) -/

theorem W3_arg1 (c : Dev nD) : W3 m ρ c (Proc.devRef .tc main_arg1) = W2 m ρ c (Proc.devRef .tc main_arg1) := by
  host_keep main_arg1

theorem W3_arg4 (c : Dev nD) : W3 m ρ c (Proc.devRef .tc main_arg4) = W2 m ρ c (Proc.devRef .tc main_arg4) := by
  host_keep main_arg4

theorem W3_arg5 (c : Dev nD) : W3 m ρ c (Proc.devRef .tc main_arg5) = W2 m ρ c (Proc.devRef .tc main_arg5) := by
  host_keep main_arg5

theorem W3_arg6 (c : Dev nD) : W3 m ρ c (Proc.devRef .tc main_arg6) = W2 m ρ c (Proc.devRef .tc main_arg6) := by
  host_keep main_arg6

theorem W3_arg7 (c : Dev nD) : W3 m ρ c (Proc.devRef .tc main_arg7) = W2 m ρ c (Proc.devRef .tc main_arg7) := by
  host_keep main_arg7

theorem W3_v0 (c : Dev nD) : W3 m ρ c (Proc.devRef .tc main_v0) = W2 m ρ c (Proc.devRef .tc main_v0) := by
  host_keep main_v0

theorem W3_v1 (c : Dev nD) : W3 m ρ c (Proc.devRef .tc main_v1) = W2 m ρ c (Proc.devRef .tc main_v1) := by
  host_keep main_v1

theorem W3_v2 (c : Dev nD) : W3 m ρ c (Proc.devRef .tc main_v2)
    = shapeCast S1x128 (W2 m ρ c (Proc.devRef .tc main_arg3)) shapeCasts_S128_S1x128 := by
  show StableHlo.after hostOps1 (W2 m ρ c) (Proc.devRef .tc main_v2) = _
  after_results
  rfl

/-! ## Across region 1 (it reads A, Y₁ and the bias row, and writes H₁) -/

theorem W4_arg4 (c : Dev nD) : W4 m ρ c (Proc.devRef .tc main_arg4) = W3 m ρ c (Proc.devRef .tc main_arg4) :=
  W4_of_ne m ρ c main_arg4 (by decide)

theorem W4_arg5 (c : Dev nD) : W4 m ρ c (Proc.devRef .tc main_arg5) = W3 m ρ c (Proc.devRef .tc main_arg5) :=
  W4_of_ne m ρ c main_arg5 (by decide)

theorem W4_arg6 (c : Dev nD) : W4 m ρ c (Proc.devRef .tc main_arg6) = W3 m ρ c (Proc.devRef .tc main_arg6) :=
  W4_of_ne m ρ c main_arg6 (by decide)

theorem W4_arg7 (c : Dev nD) : W4 m ρ c (Proc.devRef .tc main_arg7) = W3 m ρ c (Proc.devRef .tc main_arg7) :=
  W4_of_ne m ρ c main_arg7 (by decide)

theorem W4_v0 (c : Dev nD) : W4 m ρ c (Proc.devRef .tc main_v0) = W3 m ρ c (Proc.devRef .tc main_v0) :=
  W4_of_ne m ρ c main_v0 (by decide)

theorem W4_arg1 (c : Dev nD) : W4 m ρ c (Proc.devRef .tc main_arg1) = W3 m ρ c (Proc.devRef .tc main_arg1) :=
  (W4_arr m ρ c 0).trans (((dat1 (V3 m ρ) c).arrAt_in 0 rfl _).trans (A_eq1 (V3 m ρ) c 0))

theorem W4_v3 (c : Dev nD) : W4 m ρ c (Proc.devRef .tc main_v3) = (dat1 (V3 m ρ) c).arrAt 3 cfg1.N :=
  W4_arr m ρ c 3

/-! ## Across region 2 (it reads H₁, W₂ and the zero row, and writes Y₂) -/

theorem W5_arg1 (c : Dev nD) : W5 m ρ c (Proc.devRef .tc main_arg1) = W4 m ρ c (Proc.devRef .tc main_arg1) :=
  W5_of_ne m ρ c main_arg1 (by decide)

theorem W5_arg5 (c : Dev nD) : W5 m ρ c (Proc.devRef .tc main_arg5) = W4 m ρ c (Proc.devRef .tc main_arg5) :=
  W5_of_ne m ρ c main_arg5 (by decide)

theorem W5_arg6 (c : Dev nD) : W5 m ρ c (Proc.devRef .tc main_arg6) = W4 m ρ c (Proc.devRef .tc main_arg6) :=
  W5_of_ne m ρ c main_arg6 (by decide)

theorem W5_arg7 (c : Dev nD) : W5 m ρ c (Proc.devRef .tc main_arg7) = W4 m ρ c (Proc.devRef .tc main_arg7) :=
  W5_of_ne m ρ c main_arg7 (by decide)

theorem W5_v4 (c : Dev nD) : W5 m ρ c (Proc.devRef .tc main_v4) = (dat2 (V4 m ρ) c).arrAt 3 cfg2.N :=
  W5_arr m ρ c 3

/-! ## Across the third host stretch (it lays b₂ out as a 1×128 row) -/

theorem W6_arg1 (c : Dev nD) : W6 m ρ c (Proc.devRef .tc main_arg1) = W5 m ρ c (Proc.devRef .tc main_arg1) := by
  host_keep main_arg1

theorem W6_arg6 (c : Dev nD) : W6 m ρ c (Proc.devRef .tc main_arg6) = W5 m ρ c (Proc.devRef .tc main_arg6) := by
  host_keep main_arg6

theorem W6_arg7 (c : Dev nD) : W6 m ρ c (Proc.devRef .tc main_arg7) = W5 m ρ c (Proc.devRef .tc main_arg7) := by
  host_keep main_arg7

theorem W6_v4 (c : Dev nD) : W6 m ρ c (Proc.devRef .tc main_v4) = W5 m ρ c (Proc.devRef .tc main_v4) := by
  host_keep main_v4

theorem W6_v5 (c : Dev nD) : W6 m ρ c (Proc.devRef .tc main_v5)
    = shapeCast S1x128 (W5 m ρ c (Proc.devRef .tc main_arg5)) shapeCasts_S128_S1x128 := by
  show StableHlo.after hostOps3 (W5 m ρ c) (Proc.devRef .tc main_v5) = _
  after_results
  rfl

/-! ## Across region 3 (it reads A, Y₂ and the bias row, and writes H₂) -/

theorem W7_arg6 (c : Dev nD) : W7 m ρ c (Proc.devRef .tc main_arg6) = W6 m ρ c (Proc.devRef .tc main_arg6) :=
  W7_of_ne m ρ c main_arg6 (by decide)

theorem W7_arg7 (c : Dev nD) : W7 m ρ c (Proc.devRef .tc main_arg7) = W6 m ρ c (Proc.devRef .tc main_arg7) :=
  W7_of_ne m ρ c main_arg7 (by decide)

theorem W7_v6 (c : Dev nD) : W7 m ρ c (Proc.devRef .tc main_v6) = (dat3 (V6 m ρ) c).arrAt 3 cfg3.N :=
  W7_arr m ρ c 3

/-! ## Across the last host stretch (it lays b_f out as a 1×1 array) -/

theorem W8_arg6 (c : Dev nD) : W8 m ρ c (Proc.devRef .tc main_arg6) = W7 m ρ c (Proc.devRef .tc main_arg6) := by
  host_keep main_arg6

theorem W8_v6 (c : Dev nD) : W8 m ρ c (Proc.devRef .tc main_v6) = W7 m ρ c (Proc.devRef .tc main_v6) := by
  host_keep main_v6

theorem W8_v7 (c : Dev nD) : W8 m ρ c (Proc.devRef .tc main_v7)
    = shapeCast S1x1 (W7 m ρ c (Proc.devRef .tc main_arg7)) shapeCasts_S1_S1x1 := by
  show StableHlo.after hostOps4 (W7 m ρ c) (Proc.devRef .tc main_v7) = _
  after_results
  rfl

/-! ## Region 4 writes the result -/

theorem W9_v8 (c : Dev nD) : W9 m ρ c (Proc.devRef .tc main_v8) = (dat4 (V8 m ρ) c).arrAt 3 cfg4.N :=
  W9_arr m ρ c 3

end Cert.KernelIdeal.Chain

end
-- ==== Proof.Region0.lean ====
/-
  Region 0 of the kernel program: Y₁ = X · W₁ + (the staged zero row), as one function of the arrays the region finds.

  The region is a row-blocked matrix product with a row added: the grid has four points, and point t works on rows
  2048·t … 2048·t + 2047 of the left operand x (an 8192×256 array). The right operand w (256×128) and the
  one-row array z (1×128) are read whole at every point (their block index is (0, 0)), and every point writes its
  2048×128 block of the output back. Inside a block the body forms, at the extended reals (where the narrowing to
  bf16 is the identity and a product into the zero accumulator is the plain sum),
      out(p, q) = Σ_k x(p, k) · w(k, q) + z(0, q).
  Row r of the output belongs to exactly the block of point r / 2048, where it is row r % 2048; reading the left
  operand's block at row p of point t is reading x at row 2048·t + p. So entry (r, q) of the output array depends on
  row r of x, column q of w and entry (0, q) of z only, and is the matrix product with the one-row array added to every row (`Cert.Gcn.denseRow`) of the three arrays as the region finds them.
  No law of arithmetic is used beyond re-indexing the contraction sum by its one coordinate.
-/
import proofs.«101808_j25486335935216_1_alg».proof.Defs
import proofs.«101808_j25486335935216_1_alg».proof.Proof.Gen.KernelIdeal.Frame
import proofs.«101808_j25486335935216_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Region0

open Cert.KernelIdeal Cert.KernelIdeal.Gen

/-- The offset (0, 0) of a whole-buffer access, as the constant-zero function. -/
theorem hz : (![0, 0] : Fin 2 → Nat) = fun _ => 0 := funext fun a => by fin_cases a <;> rfl

/-- The body stores once, over the whole output buffer, so what it leaves there is the stored value: the payload of
    the three loaded blocks (each load reads its whole buffer). -/
theorem out_eq (x0 : Vec Ideal S2048x256 .f32) (x1 : Vec Ideal S256x128 .f32) (x2 : Vec Ideal S1x128 .f32) :
    out0_3 x0 x1 x2 = k0_pay1 x0 x1 x2 := by
  unfold out0_3
  rw [View.canon_unit_zero hz]
  simp only [View.ld_unit_zero (S := S2048x256) hz, View.ld_unit_zero (S := S256x128) hz, View.ld_unit_zero (S := S1x128) hz]

/-! ## The product's operand indices: left (row of the output, contraction), right (contraction, column of the output) -/

/-- The left operand's row is the output's row (axis 0 is the left operand's free axis). -/
theorem lhs_ax0 (i : S2048x128.Idx) (q : Cert.KernelIdeal.dot_S2048x256_S256x128_S2048x128_1_0_0_1_n_n.contr.Idx) :
    (Cert.KernelIdeal.dot_S2048x256_S256x128_S2048x128_1_0_0_1_n_n.lhsIdx i q 0).val = (i 0).val := by
  unfold DotDims.lhsIdx
  rw [dif_neg (show ¬(0 : Fin S2048x256.rank) ∈ Cert.KernelIdeal.dot_S2048x256_S256x128_S2048x128_1_0_0_1_n_n.lhsBatch by decide), dif_pos (show (0 : Fin S2048x256.rank) ∈ Cert.KernelIdeal.dot_S2048x256_S256x128_S2048x128_1_0_0_1_n_n.lhsNonContracting by decide)]
  rfl
/-- The left operand's column is the contraction coordinate. -/
theorem lhs_ax1 (i : S2048x128.Idx) (q : Cert.KernelIdeal.dot_S2048x256_S256x128_S2048x128_1_0_0_1_n_n.contr.Idx) :
    (Cert.KernelIdeal.dot_S2048x256_S256x128_S2048x128_1_0_0_1_n_n.lhsIdx i q 1).val = (q ⟨0, by decide⟩).val :=
  Cert.KernelIdeal.dot_S2048x256_S256x128_S2048x128_1_0_0_1_n_n.lhsIdx_val_of_single rfl i q
/-- The right operand's row is the contraction coordinate. -/
theorem rhs_ax0 (i : S2048x128.Idx) (q : Cert.KernelIdeal.dot_S2048x256_S256x128_S2048x128_1_0_0_1_n_n.contr.Idx) :
    (Cert.KernelIdeal.dot_S2048x256_S256x128_S2048x128_1_0_0_1_n_n.rhsIdx i q 0).val = (q ⟨0, by decide⟩).val :=
  Cert.KernelIdeal.dot_S2048x256_S256x128_S2048x128_1_0_0_1_n_n.rhsIdx_val_of_single rfl i q
/-- The right operand's column is the output's column (axis 1 is the right operand's free axis). -/
theorem rhs_ax1 (i : S2048x128.Idx) (q : Cert.KernelIdeal.dot_S2048x256_S256x128_S2048x128_1_0_0_1_n_n.contr.Idx) :
    (Cert.KernelIdeal.dot_S2048x256_S256x128_S2048x128_1_0_0_1_n_n.rhsIdx i q 1).val = (i 1).val := by
  unfold DotDims.rhsIdx
  rw [dif_neg (show ¬(1 : Fin S256x128.rank) ∈ Cert.KernelIdeal.dot_S2048x256_S256x128_S2048x128_1_0_0_1_n_n.rhsBatch by decide), dif_pos (show (1 : Fin S256x128.rank) ∈ Cert.KernelIdeal.dot_S2048x256_S256x128_S2048x128_1_0_0_1_n_n.rhsNonContracting by decide)]
  rfl

/-- The product into the zero accumulator, at entry (p, q): the sum over the 256 contraction coordinates of the
    left operand's row p against the right operand's column q. The contraction shape has one axis of extent 256, so
    its indices are in bijection with the coordinates 0 … 255, and the sum is re-indexed along that bijection. -/
theorem matmul_at (a : FVec Ideal S2048x256 .bf16) (b : FVec Ideal S256x128 .bf16) (p : Fin 2048) (q : Fin 128) :
    FloatOps.matmul Cert.KernelIdeal.dot_S2048x256_S256x128_S2048x128_1_0_0_1_n_n none a b (constant (F := Ideal) S2048x128 .f32 0x00000000#32) (ix2 p q)
      = ∑ k : Fin 256, a (ix2 p k) * b (ix2 k q) := by
  rw [Ideal.matmul_constant_zero_apply, ← Equiv.sum_comp (ValueIdx.contrEquiv1 Cert.KernelIdeal.dot_S2048x256_S256x128_S2048x128_1_0_0_1_n_n 256 rfl rfl).symm]
  refine Finset.sum_congr rfl fun k _ => ?_
  have hk := ValueIdx.contrEquiv1_symm_val Cert.KernelIdeal.dot_S2048x256_S256x128_S2048x128_1_0_0_1_n_n 256 rfl rfl k
  have el : Cert.KernelIdeal.dot_S2048x256_S256x128_S2048x128_1_0_0_1_n_n.lhsIdx (ix2 p q) ((ValueIdx.contrEquiv1 Cert.KernelIdeal.dot_S2048x256_S256x128_S2048x128_1_0_0_1_n_n 256 rfl rfl).symm k) = ix2 p k := funext fun a => Fin.ext (by
    match a with
    | ⟨0, _⟩ => exact lhs_ax0 _ _
    | ⟨1, _⟩ => exact (lhs_ax1 _ _).trans hk)
  have er : Cert.KernelIdeal.dot_S2048x256_S256x128_S2048x128_1_0_0_1_n_n.rhsIdx (ix2 p q) ((ValueIdx.contrEquiv1 Cert.KernelIdeal.dot_S2048x256_S256x128_S2048x128_1_0_0_1_n_n 256 rfl rfl).symm k) = ix2 k q := funext fun a => Fin.ext (by
    match a with
    | ⟨0, _⟩ => exact (rhs_ax0 _ _).trans hk
    | ⟨1, _⟩ => exact rhs_ax1 _ _)
  rw [el, er]

/-- The one-row array stretched over the 2048 rows reads, at (p, q), its entry (0, q): the row axis has extent one
    and is read at 0, the column axis is carried over. -/
theorem row_at (z : Vec Ideal S1x128 .f32) (p : Fin 2048) (q : Fin 128) :
    broadcastTo S2048x128 (shapeCast S1x128 z shapeCasts_S1x128_S1x128) broadcasts_S1x128_S2048x128 (ix2 p q) = z (ix2 0 q) := by
  rw [shapeCast_self]
  refine broadcastTo_apply z broadcasts_S1x128_S2048x128 (ix2 p q) (ix2 0 q) ?_
  intro a
  match a with
  | ⟨0, _⟩ => rfl
  | ⟨1, _⟩ => rfl

/-- THE BODY AT AN ENTRY of its block: the sum over the contraction of the left block's row p against the right block's column q, plus the one-row block's entry (0, q). -/
theorem pay_at (x0 : Vec Ideal S2048x256 .f32) (x1 : Vec Ideal S256x128 .f32) (x2 : Vec Ideal S1x128 .f32) (p : Fin 2048) (q : Fin 128) :
    k0_pay1 x0 x1 x2 (ix2 p q) = (∑ k : Fin 256, x0 (ix2 p k) * x1 (ix2 k q)) + x2 (ix2 0 q) := by
  unfold k0_pay1
  refine (addf_apply _ _ _).trans ?_
  refine congrArg₂ (· + ·) ?_ (row_at x2 p q)
  exact matmul_at _ _ p q

/-! ## From blocks to the array -/

variable (V : (c : Dev nD) → (b : Ref sig .tc) → Buf (Elt Ideal) ((c : Thread nD τ).loc b))

/-- The windows' block indices at every grid point: the left operand's and the output's row-block index is the
    point itself, every other block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the left operand's block at point t is row 2048·t + p of the array. -/
theorem xblk_at (c : Dev nD) (t : Fin cfg0.N) (p : Fin 2048) (k : Fin 256) (r : Fin 8192) (hr : r.val = 2048 * t.val + p.val) :
    (iblk0 V c 0 t : Vec Ideal S2048x256 .f32) (ix2 p k) = (V c main_arg0 : S8192x256.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2048 + 1 * p.val = r.val; rw [e0, hr]; omega
  | ⟨1, _⟩ => show win0_0.index t 1 * 256 + 1 * k.val = k.val; rw [e1]; omega

/-- The right operand's block is the whole array at every point. -/
theorem wblk_at (c : Dev nD) (t : Fin cfg0.N) (k : Fin 256) (q : Fin 128) :
    (iblk0 V c 1 t : Vec Ideal S256x128 .f32) (ix2 k q) = (V c main_arg2 : S256x128.Idx → EReal) (ix2 k q) := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t 0 * 256 + 1 * k.val = k.val; rw [e2]; omega
  | ⟨1, _⟩ => show win0_1.index t 1 * 128 + 1 * q.val = q.val; rw [e3]; omega

/-- The one-row array's block is the whole array at every point. -/
theorem zblk_at (c : Dev nD) (t : Fin cfg0.N) (q : Fin 128) :
    (iblk0 V c 2 t : Vec Ideal S1x128 .f32) (ix2 0 q) = (V c main_v0 : S1x128.Idx → EReal) (ix2 0 q) := by
  obtain ⟨-, -, -, -, e4, e5, -⟩ := idx_facts t
  unfold iblk0
  rw [View.read_apply]
  show V c main_v0 _ = V c main_v0 _
  congr 1
  funext a
  apply Fin.ext
  match a with
  | ⟨0, _⟩ => show win0_2.index t 0 * 1 + 1 * 0 = 0; rw [e4]
  | ⟨1, _⟩ => show win0_2.index t 1 * 128 + 1 * q.val = q.val; rw [e5]; omega

/-- Entry (p, q) of the output's block at point t sits at (2048·t + p, q) of the output array. -/
theorem oblk_emb (t : Fin cfg0.N) (p : Fin 2048) (q : Fin 128) (r : Fin 8192) (hr : r.val = 2048 * t.val + p.val) :
    ((cfg0.win 3).blk t).view.emb (ix2 p q) = (ix2 r q : S8192x128.Idx) := by
  obtain ⟨-, -, -, -, -, -, e6, e7⟩ := idx_facts t
  funext a
  apply Fin.ext
  match a with
  | ⟨0, _⟩ => show win0_3.index t 0 * 2048 + 1 * p.val = r.val; rw [e6, hr]; omega
  | ⟨1, _⟩ => show win0_3.index t 1 * 128 + 1 * q.val = q.val; rw [e7]; omega

/-- WHAT POINT t WRITES BACK is block t of the matrix product with the one-row array added to every row (`Cert.Gcn.denseRow`) of the three arrays: at entry (p, q) of the block both sides are
    Σ_k x(r, k) · w(k, q) + z(0, q) with r = 2048·t + p. -/
theorem flushed_eq (c : Dev nD) (t : Fin cfg0.N) :
    (dat0 (F := Ideal) V c).flushed 3 t = ((cfg0.win 3).blk t).view.read (Elt Ideal) (Cert.Gcn.denseRow (V c main_arg0) (V c main_arg2) (V c main_v0)) := by
  show (cfg0.win 3).cut (grid0.coords t) ((dat0 V c).after 3 t) = _
  rw [after0_3]
  have ht : t.val < 4 := lt_of_lt_of_eq t.isLt N_0
  funext y
  obtain ⟨p, q, rfl⟩ : ∃ (p : Fin 2048) (q : Fin 128), y = ix2 p q := ⟨y 0, y 1, eq_ix2 y⟩
  have hp : p.val < 2048 := p.isLt
  show out0_3 (iblk0 V c 0 t) (iblk0 V c 1 t) (iblk0 V c 2 t) (ix2 p q) = Cert.Gcn.denseRow (V c main_arg0) (V c main_arg2) (V c main_v0) (((cfg0.win 3).blk t).view.emb (ix2 p q))
  rw [oblk_emb t p q ⟨2048 * t.val + p.val, by omega⟩ rfl, Cert.Gcn.denseRow_apply]
  refine (congrFun (out_eq (iblk0 V c 0 t) (iblk0 V c 1 t) (iblk0 V c 2 t)) (ix2 p q)).trans ?_
  refine (pay_at (iblk0 V c 0 t) (iblk0 V c 1 t) (iblk0 V c 2 t) p q).trans ?_
  refine congrArg₂ (· + ·) (Finset.sum_congr rfl fun k _ => congrArg₂ (· * ·) ?_ ?_) ?_
  · exact xblk_at V c t p k ⟨2048 * t.val + p.val, by omega⟩ rfl
  · exact wblk_at V c t k q
  · exact zblk_at V c t q

/-- An index of the output array is in point t's block iff each coordinate is in the block's range on its axis. -/
theorem mem_blk (t : Fin cfg0.N) (i : S8192x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v1).slice (win0_3.rect t)).set ↔ _
  rw [View.set_slice_whole, Rect.mem_set_unit]
  exact Iff.rfl

/-- The four blocks cover the output array: row r lies in the block of point r / 2048 (r < 8192, so the quotient is
    below 4), and every column lies in the block's one column range. -/
theorem cover (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 4 := N_0
  obtain ⟨t, htv⟩ : ∃ t : Fin cfg0.N, t.val = (i 0).val / 2048 := ⟨⟨(i 0).val / 2048, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t 0 * 2048 ≤ (i 0).val ∧ (i 0).val < win0_3.index t 0 * 2048 + 2048; rw [e6, htv]; omega
  | ⟨1, _⟩ => show win0_3.index t 1 * 128 ≤ (i 1).val ∧ (i 1).val < win0_3.index t 1 * 128 + 128; rw [e7]; omega

/-- THE OUTPUT ARRAY after the region: every point writes back its block of the matrix product with the one-row array added to every row (`Cert.Gcn.denseRow`), and the blocks cover the array. -/
theorem final (c : Dev nD) :
    (dat0 (F := Ideal) V c).arrAt 3 cfg0.N = Cert.Gcn.denseRow (V c main_arg0) (V c main_arg2) (V c main_v0) :=
  (dat0 (F := Ideal) V c).arrAt_eq_of_cover 3 _ (fun t _ => flushed_eq V c t) cover

end Cert.KernelIdeal.Region0

end
-- ==== Proof.Region1.lean ====
/-
  One graph-convolution layer computed as a blocked matrix product.

  The layer is H = max (A · Y + b, 0): A is 8192×8192, Y is 8192×128, b is a 1×128 row added to every row of the
  product, and the maximum with 0 is taken entry by entry. The program walks a 4 × 4 grid. Grid point t = 4·ib + kb
  works on row block ib (rows 2048·ib … 2048·ib + 2047 of H) and on reduction block kb (columns 2048·kb … of A against
  rows 2048·kb … of Y). One 2048×128 output block is kept across the four reduction steps of a row block: step 0 sets
  it to zero and adds the first block product, steps 1 and 2 add theirs, step 3 adds the last one and then adds the
  bias row and takes the positive part; only after step 3 is the block written to rows 2048·ib … of the result.

  Read over the extended reals, where a change of float format is the identity and a block product into a zero
  accumulator is a plain finite sum, entry (p, q) of the kept block after step kb < 3 is the sum of the first
  2048·(kb + 1) terms a(2048·ib + p, k) · y(k, q), and after step 3 it is max (Σ_{k < 8192} a(2048·ib + p, k) · y(k, q)
  + b(0, q), 0). This is proved by induction on the reduction step; the only law used is that a sum over an initial
  segment of the naturals splits into a shorter initial segment and the rest, which holds in every commutative monoid,
  so no entry has to be finite. The four write-backs cover the 8192 rows, hence the result array is the layer.
-/
import proofs.«101808_j25486335935216_1_alg».proof.Defs
import proofs.«101808_j25486335935216_1_alg».proof.Proof.Gen.KernelIdeal.Frame
import proofs.«101808_j25486335935216_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen

/-! ## What one grid point leaves in the output block

The body at a grid point stores whole 2048×128 blocks into the output's staging buffer. At the first reduction
step it stores the zero block and then the accumulation read back over it; at a middle step it stores the
accumulation over what the step before left; at the last step it stores the accumulation and then, over that,
the bias row added and the positive part taken. In every case the last whole-block store is what remains. -/

section Pieces
variable {F : FTy → Type} [FloatOps F]

/-- The offsets of a whole-block access are zero on both axes. -/
theorem hz : (![0, 0] : Fin 2 → Nat) = fun _ => 0 := funext fun a => by fin_cases a <;> rfl

/-- First reduction step: the zero block, then the product of the two input blocks added to it. -/
theorem out_A (c : Dev nD) (i : grid1.Coords) (a2 : Memref sig .tc .vmem S2048x2048 .f32) (h2 : a2.IsWhole)
    (a3 : Memref sig .tc .vmem S2048x128 .f32) (h3 : a3.IsWhole) (a4 : Memref sig .tc .vmem S1x128 .f32) (h4 : a4.IsWhole)
    (a5 : Memref sig .tc .vmem S2048x128 .f32) (h5 : a5.IsWhole) (hc0 : cond1_0 i) (hc1 : ¬cond1_1 i)
    (x0 : Vec F S2048x2048 .f32) (x1 : Vec F S2048x128 .f32) (x2 : Vec F S1x128 .f32) :
    out1_A_3 c i a2 h2 a3 h3 a4 h4 a5 h5 hc0 hc1 x0 x1 x2 = k1_pay2 x0 x1 (k1_pay1 (F := F)) := by
  unfold out1_A_3
  rw [View.read_writes_eq_canon _ _ _ (cover1_A_3 c i a2 h2 a3 h3 a4 h4 a5 h5 hc0 hc1 x0 x1 x2)]
  unfold kernelRun1_A
  dsimp only
  sl_unfold_words
  rw [View.canon_cons_unit_zero (S := S2048x128) hz, View.readCov_unit_zero (S := S2048x128) _ hz]
  simp only [View.readAt_eq_ld, h2.read_unread, h3.read_unread, View.ld_unit_zero (S := S2048x2048) hz,
    View.ld_unit_zero (S := S2048x128) hz]

/-- A middle reduction step: the product of the two input blocks added to what the output block held. -/
theorem out_B (c : Dev nD) (i : grid1.Coords) (a2 : Memref sig .tc .vmem S2048x2048 .f32) (h2 : a2.IsWhole)
    (a3 : Memref sig .tc .vmem S2048x128 .f32) (h3 : a3.IsWhole) (a4 : Memref sig .tc .vmem S1x128 .f32) (h4 : a4.IsWhole)
    (a5 : Memref sig .tc .vmem S2048x128 .f32) (h5 : a5.IsWhole) (hc0 : ¬cond1_0 i) (hc1 : ¬cond1_1 i)
    (x0 : Vec F S2048x2048 .f32) (x1 : Vec F S2048x128 .f32) (x2 : Vec F S1x128 .f32) (xo : Vec F S2048x128 .f32) :
    out1_B_3 c i a2 h2 a3 h3 a4 h4 a5 h5 hc0 hc1 x0 x1 x2 xo = k1_pay2 x0 x1 xo := by
  unfold out1_B_3
  rw [View.read_writes_eq_canon _ _ _ (cover1_B_3 c i a2 h2 a3 h3 a4 h4 a5 h5 hc0 hc1 x0 x1 x2 xo)]
  unfold kernelRun1_B
  dsimp only
  sl_unfold_words
  rw [View.canon_unit_zero hz]
  simp only [View.readAt_eq_ld, h2.read_unread, h3.read_unread, h5.read_unread, View.ld_unit_zero (S := S2048x2048) hz,
    View.ld_unit_zero (S := S2048x128) hz]

/-- The last reduction step: the accumulation as at a middle step, then the bias row added and the positive part. -/
theorem out_C (c : Dev nD) (i : grid1.Coords) (a2 : Memref sig .tc .vmem S2048x2048 .f32) (h2 : a2.IsWhole)
    (a3 : Memref sig .tc .vmem S2048x128 .f32) (h3 : a3.IsWhole) (a4 : Memref sig .tc .vmem S1x128 .f32) (h4 : a4.IsWhole)
    (a5 : Memref sig .tc .vmem S2048x128 .f32) (h5 : a5.IsWhole) (hc0 : ¬cond1_0 i) (hc1 : cond1_1 i)
    (x0 : Vec F S2048x2048 .f32) (x1 : Vec F S2048x128 .f32) (x2 : Vec F S1x128 .f32) (xo : Vec F S2048x128 .f32) :
    out1_C_3 c i a2 h2 a3 h3 a4 h4 a5 h5 hc0 hc1 x0 x1 x2 xo = k1_pay3 (k1_pay2 x0 x1 xo) x2 := by
  unfold out1_C_3
  rw [View.read_writes_eq_canon _ _ _ (cover1_C_3 c i a2 h2 a3 h3 a4 h4 a5 h5 hc0 hc1 x0 x1 x2 xo)]
  unfold kernelRun1_C
  dsimp only
  sl_unfold_words
  rw [View.canon_cons_unit_zero (S := S2048x128) hz, View.readCov_unit_zero (S := S2048x128) _ hz]
  simp only [View.readAt_eq_ld, h2.read_unread, h3.read_unread, h4.read_unread, h5.read_unread,
    View.ld_unit_zero (S := S2048x2048) hz, View.ld_unit_zero (S := S2048x128) hz, View.ld_unit_zero (S := S1x128) hz]

end Pieces

/-! ## The three stored values, entry by entry, over the extended reals

Over the extended reals the change of float format is the identity and a matrix product into a zero accumulator
is the plain sum over the contracted axis. So entry (p, q) of the accumulation is the old entry plus the sum over
the 2048 columns k of the left block's (p, k) times the right block's (k, q); entry (p, q) of the final value is
the positive part of the accumulated entry plus entry q of the bias row. -/

section Payloads

/-- Row coordinate of the left operand of the block product: the output's row. -/
theorem lhs_0 (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
/-- Column coordinate of the left operand: the contracted index. -/
theorem lhs_1 (i : S2048x128.Idx) (q : dot_S2048x2048_S2048x128_S2048x128_1_0_0_1_n_n.contr.Idx) :
    (dot_S2048x2048_S2048x128_S2048x128_1_0_0_1_n_n.lhsIdx i q 1).val = (q ⟨0, by decide⟩).val :=
  dot_S2048x2048_S2048x128_S2048x128_1_0_0_1_n_n.lhsIdx_val_of_single rfl i q
/-- Row coordinate of the right operand: the contracted index. -/
theorem rhs_0 (i : S2048x128.Idx) (q : dot_S2048x2048_S2048x128_S2048x128_1_0_0_1_n_n.contr.Idx) :
    (dot_S2048x2048_S2048x128_S2048x128_1_0_0_1_n_n.rhsIdx i q 0).val = (q ⟨0, by decide⟩).val :=
  dot_S2048x2048_S2048x128_S2048x128_1_0_0_1_n_n.rhsIdx_val_of_single rfl i q
/-- Column coordinate of the right operand: the output's column. -/
theorem rhs_1 (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The block product into the zero accumulator, at (p, q): the sum over the 2048 contracted positions. -/
theorem blockProd_apply (l : FVec Ideal S2048x2048 .bf16) (r : FVec Ideal S2048x128 .bf16) (p : Fin 2048) (q : Fin 128) :
    FloatOps.matmul dot_S2048x2048_S2048x128_S2048x128_1_0_0_1_n_n none l r (constant (F := Ideal) S2048x128 .f32 0x00000000#32) (ix2 p q)
      = ∑ k : Fin 2048, l (ix2 p k) * r (ix2 k q) := by
  rw [Ideal.matmul_constant_zero_apply, ← Equiv.sum_comp (contrEquiv1 dot_S2048x2048_S2048x128_S2048x128_1_0_0_1_n_n 2048 rfl rfl).symm]
  refine Finset.sum_congr rfl fun k _ => ?_
  have hk := contrEquiv1_symm_val dot_S2048x2048_S2048x128_S2048x128_1_0_0_1_n_n 2048 rfl rfl k
  have el : dot_S2048x2048_S2048x128_S2048x128_1_0_0_1_n_n.lhsIdx (ix2 p q) ((contrEquiv1 dot_S2048x2048_S2048x128_S2048x128_1_0_0_1_n_n 2048 rfl rfl).symm k) = ix2 p k := funext fun a => Fin.ext (by
    match a with
    | ⟨0, _⟩ => exact lhs_0 _ _
    | ⟨1, _⟩ => exact (lhs_1 _ _).trans hk)
  have er : dot_S2048x2048_S2048x128_S2048x128_1_0_0_1_n_n.rhsIdx (ix2 p q) ((contrEquiv1 dot_S2048x2048_S2048x128_S2048x128_1_0_0_1_n_n 2048 rfl rfl).symm k) = ix2 k q := funext fun a => Fin.ext (by
    match a with
    | ⟨0, _⟩ => exact (rhs_0 _ _).trans hk
    | ⟨1, _⟩ => exact rhs_1 _ _)
  rw [el, er]

/-- The block the first step stores is zero everywhere. -/
theorem pay1_apply (p : Fin 2048) (q : Fin 128) : k1_pay1 (F := Ideal) (ix2 p q) = 0 := by
  unfold k1_pay1
  exact Ideal.ofBits_zero_f32

/-- The accumulation at (p, q): the old entry plus row p of the left block against column q of the right block. -/
theorem pay2_apply (x0 : Vec Ideal S2048x2048 .f32) (x1 : Vec Ideal S2048x128 .f32) (xo : Vec Ideal S2048x128 .f32)
    (p : Fin 2048) (q : Fin 128) :
    k1_pay2 x0 x1 xo (ix2 p q) = xo (ix2 p q) + ∑ k : Fin 2048, x0 (ix2 p k) * x1 (ix2 k q) := by
  unfold k1_pay2
  show shapeCast S2048x128 xo shapeCasts_S2048x128_S2048x128 (ix2 p q)
      + FloatOps.matmul dot_S2048x2048_S2048x128_S2048x128_1_0_0_1_n_n none (truncf .bf16 x0 bitsLt_bf16_f32)
          (truncf .bf16 (shapeCast S2048x128 x1 shapeCasts_S2048x128_S2048x128) bitsLt_bf16_f32)
          (constant (F := Ideal) S2048x128 .f32 0x00000000#32) (ix2 p q) = _
  rw [shapeCast_self, shapeCast_self, blockProd_apply]
  rfl

/-- The final value at (p, q): the positive part of the accumulated entry plus entry q of the bias row. -/
theorem pay3_apply (acc : Vec Ideal S2048x128 .f32) (b : Vec Ideal S1x128 .f32) (p : Fin 2048) (q : Fin 128) :
    k1_pay3 acc b (ix2 p q) = max (acc (ix2 p q) + b (ix2 0 q)) 0 := by
  unfold k1_pay3
  show max (shapeCast S2048x128 acc shapeCasts_S2048x128_S2048x128 (ix2 p q)
      + broadcastTo S2048x128 (shapeCast S1x128 b shapeCasts_S1x128_S1x128) broadcasts_S1x128_S2048x128 (ix2 p q))
      (Ideal.ofBits .f32 0x00000000#32) = _
  rw [shapeCast_self, shapeCast_self, Ideal.ofBits_zero_f32,
    broadcastTo_apply b broadcasts_S1x128_S2048x128 (ix2 p q) (ix2 0 q) (fun a => by
      match a with
      | ⟨0, _⟩ => rfl
      | ⟨1, _⟩ => rfl)]

end Payloads

/-! ## The blocks the windows read

Grid point t = 4·ib + kb reads from the 8192×8192 matrix the 2048×2048 block of rows 2048·ib … and columns
2048·kb …, from the 8192×128 matrix the 2048 rows 2048·kb … (all 128 columns), and the whole 1×128 bias row. -/

section Blocks
variable (V : (c : Dev nD) → (b : Ref sig .tc) → Buf (Elt Ideal) ((c : Thread nD τ).loc b))

/-- The square matrix, -/
abbrev aarr (c : Dev nD) : Vec Ideal S8192x8192 .f32 := V c main_arg1
/-- the tall matrix it multiplies, -/
abbrev yarr (c : Dev nD) : Vec Ideal S8192x128 .f32 := V c main_v1
/-- and the bias row, as the region finds them. -/
abbrev barr (c : Dev nD) : Vec Ideal S1x128 .f32 := V c main_v2
/-- The square matrix's block at a grid point, -/
abbrev ablk (c : Dev nD) (t : Fin cfg1.N) : Vec Ideal S2048x2048 .f32 := iblk1 V c 0 t
/-- the tall matrix's, -/
abbrev yblk (c : Dev nD) (t : Fin cfg1.N) : Vec Ideal S2048x128 .f32 := iblk1 V c 1 t
/-- and the bias row's (all of it). -/
abbrev bblk (c : Dev nD) (t : Fin cfg1.N) : Vec Ideal S1x128 .f32 := iblk1 V c 2 t

/-- The block indices of the four windows at every grid point: row block t / 4 and reduction block t % 4. -/
theorem idx_facts : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0 :=
  (by decide +kernel : ∀ t : Fin grid1.N, _)

/-- Row p of row block ib, as a row of the whole matrix. -/
abbrev rowOf (ib : Fin 4) (p : Fin 2048) : Fin 8192 := ⟨2048 * ib.val + p.val, by omega⟩

/-- Entry (p, k) of the square matrix's block is entry (2048·ib + p, 2048·kb + k) of the matrix. -/
theorem ablk_apply (c : Dev nD) (t : Fin cfg1.N) (ib : Fin 4) (kb : ℕ) (hkb : kb < 4) (ht : t.val = 4 * ib.val + kb)
    (p k : Fin 2048) :
    ablk V c t (ix2 p k) = aarr V c (ix2 (rowOf ib p) (⟨2048 * kb + k.val, by omega⟩ : Fin 8192)) := by
  obtain ⟨e0, e1, -⟩ := idx_facts t
  show iblk1 V c 0 t (ix2 p k) = V c main_arg1 _
  unfold iblk1
  rw [View.read_apply]
  show V c main_arg1 _ = V c main_arg1 _
  refine congrArg (V c main_arg1) (funext fun a => Fin.ext ?_)
  match a with
  | ⟨0, _⟩ => show win1_0.index t (0 : Fin 2) * 2048 + 1 * p.val = 2048 * ib.val + p.val; rw [e0]; omega
  | ⟨1, _⟩ => show win1_0.index t (1 : Fin 2) * 2048 + 1 * k.val = 2048 * kb + k.val; rw [e1]; omega

/-- Entry (k, q) of the tall matrix's block is entry (2048·kb + k, q) of the matrix. -/
theorem yblk_apply (c : Dev nD) (t : Fin cfg1.N) (ib : Fin 4) (kb : ℕ) (hkb : kb < 4) (ht : t.val = 4 * ib.val + kb)
    (k : Fin 2048) (q : Fin 128) :
    yblk V c t (ix2 k q) = yarr V c (ix2 (⟨2048 * kb + k.val, by omega⟩ : Fin 8192) q) := by
  obtain ⟨-, -, e0, e1, -⟩ := idx_facts t
  show iblk1 V c 1 t (ix2 k q) = V c main_v1 _
  unfold iblk1
  rw [View.read_apply]
  show V c main_v1 _ = V c main_v1 _
  refine congrArg (V c main_v1) (funext fun a => Fin.ext ?_)
  match a with
  | ⟨0, _⟩ => show win1_1.index t (0 : Fin 2) * 2048 + 1 * k.val = 2048 * kb + k.val; rw [e0]; omega
  | ⟨1, _⟩ => show win1_1.index t (1 : Fin 2) * 128 + 1 * q.val = q.val; rw [e1]; omega

/-- The bias row's block is the bias row. -/
theorem bblk_apply (c : Dev nD) (t : Fin cfg1.N) (q : Fin 128) :
    bblk V c t (ix2 0 q) = barr V c (ix2 0 q) := by
  obtain ⟨-, -, -, -, e0, e1, -⟩ := idx_facts t
  show iblk1 V c 2 t (ix2 0 q) = V c main_v2 _
  unfold iblk1
  rw [View.read_apply]
  show V c main_v2 _ = V c main_v2 _
  refine congrArg (V c main_v2) (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

end Blocks

/-! ## The running value of the output block

Fix a row block ib, a row p in it and a column q. Entry (2048·ib + p, q) of the product is a sum of 8192 terms;
reduction step kb adds the 2048 terms k = 2048·kb … 2048·kb + 2047 to what the output block held. So after step
kb < 3 the block's entry (p, q) is the sum of the first 2048·(kb + 1) terms, and after step 3 it is the positive part
of the whole sum plus the bias. Only the splitting of a sum over an initial segment of the naturals is used:
addition on the extended reals is commutative and associative, and no entry needs to be finite. -/

section Invariant
variable (V : (c : Dev nD) → (b : Ref sig .tc) → Buf (Elt Ideal) ((c : Thread nD τ).loc b))

/-- Term k of entry (2048·ib + p, q) of the product (zero past the last column, so that sums may run over ℕ). -/
def term (c : Dev nD) (ib : Fin 4) (p : Fin 2048) (q : Fin 128) (k : ℕ) : EReal :=
  if h : k < 8192 then aarr V c (ix2 (rowOf ib p) (⟨k, h⟩ : Fin 8192)) * yarr V c (ix2 (⟨k, h⟩ : Fin 8192) q) else 0

/-- The sum of its first m terms. -/
def psum (c : Dev nD) (ib : Fin 4) (p : Fin 2048) (q : Fin 128) (m : ℕ) : EReal :=
  ∑ k ∈ Finset.range m, term V c ib p q k

/-- The first m + 2048 terms are the first m and the 2048 after them. -/
theorem psum_add (c : Dev nD) (ib : Fin 4) (p : Fin 2048) (q : Fin 128) (m : ℕ) :
    psum V c ib p q (m + 2048) = psum V c ib p q m + ∑ j ∈ Finset.range 2048, term V c ib p q (m + j) :=
  Finset.sum_range_add _ _ _

/-- All 8192 terms: the entry of the product. -/
theorem psum_full (c : Dev nD) (ib : Fin 4) (p : Fin 2048) (q : Fin 128) :
    psum V c ib p q 8192 = ∑ k : Fin 8192, aarr V c (ix2 (rowOf ib p) k) * yarr V c (ix2 k q) := by
  unfold psum
  rw [Finset.sum_range]
  refine Finset.sum_congr rfl fun k _ => ?_
  unfold term
  rw [dif_pos k.isLt]

/-- What reduction step kb adds at (p, q): row p of the left block against column q of the right block is the
    2048 terms from 2048·kb on. -/
theorem block_sum (c : Dev nD) (t : Fin cfg1.N) (ib : Fin 4) (kb : ℕ) (hkb : kb < 4) (ht : t.val = 4 * ib.val + kb)
    (p : Fin 2048) (q : Fin 128) :
    ∑ k : Fin 2048, ablk V c t (ix2 p k) * yblk V c t (ix2 k q)
      = ∑ j ∈ Finset.range 2048, term V c ib p q (2048 * kb + j) := by
  rw [Finset.sum_range]
  refine Finset.sum_congr rfl fun k _ => ?_
  rw [ablk_apply V c t ib kb hkb ht p k, yblk_apply V c t ib kb hkb ht k q]
  unfold term
  rw [dif_pos (show 2048 * kb + k.val < 8192 by omega)]

/-- After a first step the entry is zero plus the step's 2048 terms. -/
theorem step_first (c : Dev nD) (t : Fin cfg1.N) (h0 : t.val % 4 = 0) (h1 : ¬t.val % 4 = 3) (p : Fin 2048) (q : Fin 128) :
    outsAt1 V c t.val t.isLt (ix2 p q) = 0 + ∑ k : Fin 2048, ablk V c t (ix2 p k) * yblk V c t (ix2 k q) := by
  rw [outsAt1_A V c t h0 h1]
  refine (congrFun (out_A (F := Ideal) c (grid1.coords t) (ms1_0 t) (hs1_0 t) (ms1_1 t) (hs1_1 t) (ms1_2 t) (hs1_2 t)
    (ms1_3 t) (hs1_3 t) ((hcond1_0 t).mpr h0) (fun h => h1 ((hcond1_1 t).mp h)) (ablk V c t) (yblk V c t) (bblk V c t)) (ix2 p q)).trans ?_
  refine (pay2_apply (ablk V c t) (yblk V c t) (k1_pay1 (F := Ideal)) p q).trans ?_
  rw [pay1_apply]

/-- After a middle step it is what the step before left plus the step's 2048 terms. -/
theorem step_mid (c : Dev nD) (t : Fin cfg1.N) (h0 : ¬t.val % 4 = 0) (h1 : ¬t.val % 4 = 3) (p : Fin 2048) (q : Fin 128) :
    outsAt1 V c t.val t.isLt (ix2 p q)
      = outsAt1 V c (t.val - 1) (Nat.lt_of_le_of_lt (Nat.sub_le _ _) t.isLt) (ix2 p q)
        + ∑ k : Fin 2048, ablk V c t (ix2 p k) * yblk V c t (ix2 k q) := by
  rw [outsAt1_B V c t h0 h1]
  refine (congrFun (out_B (F := Ideal) c (grid1.coords t) (ms1_0 t) (hs1_0 t) (ms1_1 t) (hs1_1 t) (ms1_2 t) (hs1_2 t)
    (ms1_3 t) (hs1_3 t) (fun h => h0 ((hcond1_0 t).mp h)) (fun h => h1 ((hcond1_1 t).mp h)) (ablk V c t) (yblk V c t) (bblk V c t)
    (outsAt1 V c (t.val - 1) (Nat.lt_of_le_of_lt (Nat.sub_le _ _) t.isLt))) (ix2 p q)).trans ?_
  exact pay2_apply (ablk V c t) (yblk V c t) (outsAt1 V c (t.val - 1) (Nat.lt_of_le_of_lt (Nat.sub_le _ _) t.isLt)) p q

/-- After the last step it is the positive part of (what the step before left plus the step's terms) plus the bias. -/
theorem step_last (c : Dev nD) (t : Fin cfg1.N) (h0 : ¬t.val % 4 = 0) (h1 : t.val % 4 = 3) (p : Fin 2048) (q : Fin 128) :
    outsAt1 V c t.val t.isLt (ix2 p q)
      = max ((outsAt1 V c (t.val - 1) (Nat.lt_of_le_of_lt (Nat.sub_le _ _) t.isLt) (ix2 p q)
        + ∑ k : Fin 2048, ablk V c t (ix2 p k) * yblk V c t (ix2 k q)) + barr V c (ix2 0 q)) 0 := by
  rw [outsAt1_C V c t h0 h1]
  refine (congrFun (out_C (F := Ideal) c (grid1.coords t) (ms1_0 t) (hs1_0 t) (ms1_1 t) (hs1_1 t) (ms1_2 t) (hs1_2 t)
    (ms1_3 t) (hs1_3 t) (fun h => h0 ((hcond1_0 t).mp h)) ((hcond1_1 t).mpr h1) (ablk V c t) (yblk V c t) (bblk V c t)
    (outsAt1 V c (t.val - 1) (Nat.lt_of_le_of_lt (Nat.sub_le _ _) t.isLt))) (ix2 p q)).trans ?_
  refine (pay3_apply (k1_pay2 (ablk V c t) (yblk V c t) (outsAt1 V c (t.val - 1) (Nat.lt_of_le_of_lt (Nat.sub_le _ _) t.isLt)))
    (bblk V c t) p q).trans ?_
  rw [pay2_apply (ablk V c t) (yblk V c t) (outsAt1 V c (t.val - 1) (Nat.lt_of_le_of_lt (Nat.sub_le _ _) t.isLt)) p q,
    bblk_apply V c t q]

/-- The running contents depend on the point's number only. -/
theorem outsAt_congr (c : Dev nD) (n m : ℕ) (hn : n < cfg1.N) (hm : m < cfg1.N) (e : n = m) :
    outsAt1 V c n hn = outsAt1 V c m hm := by
  subst e; rfl

/-- THE INVARIANT, by induction on the reduction step within a row block. -/
theorem running (c : Dev nD) (ib : Fin 4) (p : Fin 2048) (q : Fin 128) :
    ∀ (kb : ℕ) (hkb : kb < 4) (hn : 4 * ib.val + kb < cfg1.N),
      outsAt1 V c (4 * ib.val + kb) hn (ix2 p q)
        = if kb = 3 then max (psum V c ib p q 8192 + barr V c (ix2 0 q)) 0 else psum V c ib p q (2048 * (kb + 1))
  | 0, hkb, hn => by
    rw [if_neg (by decide)]
    refine (step_first V c ⟨4 * ib.val + 0, hn⟩ (by dsimp only; omega) (by dsimp only; omega) p q).trans ?_
    rw [block_sum V c ⟨4 * ib.val + 0, hn⟩ ib 0 hkb rfl p q, zero_add]
    unfold psum
    refine Finset.sum_congr rfl fun j _ => ?_
    rw [Nat.mul_zero, Nat.zero_add]
  | kb + 1, hkb, hn => by
    have ih := running c ib p q kb (by omega) (by omega)
    rw [if_neg (by omega)] at ih
    have hprev : outsAt1 V c ((⟨4 * ib.val + (kb + 1), hn⟩ : Fin cfg1.N).val - 1)
        (Nat.lt_of_le_of_lt (Nat.sub_le _ _) (⟨4 * ib.val + (kb + 1), hn⟩ : Fin cfg1.N).isLt) (ix2 p q)
          = psum V c ib p q (2048 * (kb + 1)) :=
      (congrFun (outsAt_congr V c _ _ _ _ (by dsimp only; omega)) (ix2 p q)).trans ih
    by_cases h3 : kb + 1 = 3
    · rw [if_pos h3]
      refine (step_last V c ⟨4 * ib.val + (kb + 1), hn⟩ (by dsimp only; omega) (by dsimp only; omega) p q).trans ?_
      rw [hprev, block_sum V c ⟨4 * ib.val + (kb + 1), hn⟩ ib (kb + 1) hkb rfl p q, ← psum_add,
        show 2048 * (kb + 1) + 2048 = 8192 by omega]
    · rw [if_neg h3]
      refine (step_mid V c ⟨4 * ib.val + (kb + 1), hn⟩ (by dsimp only; omega) (by dsimp only; omega) p q).trans ?_
      rw [hprev, block_sum V c ⟨4 * ib.val + (kb + 1), hn⟩ ib (kb + 1) hkb rfl p q, ← psum_add,
        show 2048 * (kb + 1) + 2048 = 2048 * (kb + 1 + 1) by omega]

end Invariant

/-! ## From blocks to the array

The output block of row block ib is written back once, after reduction step 3, to rows 2048·ib … of the result. Row r
of the result is therefore written by grid point 4·(r / 2048) + 3, and the four write-backs cover all 8192 rows. -/

section Array
variable (V : (c : Dev nD) → (b : Ref sig .tc) → Buf (Elt Ideal) ((c : Thread nD τ).loc b))

/-- Entry (p, q) of the output block at a point of row block ib is entry (2048·ib + p, q) of the array. -/
theorem oblk_read (G : Vec Ideal S8192x128 .f32) (t : Fin cfg1.N) (ib : Fin 4) (ht : t.val / 4 = ib.val)
    (p : Fin 2048) (q : Fin 128) :
    ((cfg1.win 3).blk t).view.read (Elt Ideal) G (ix2 p q) = G (ix2 (rowOf ib p) q) := by
  obtain ⟨-, -, -, -, -, -, e0, e1⟩ := idx_facts t
  rw [View.read_apply]
  show G _ = G _
  refine congrArg G (funext fun a => Fin.ext ?_)
  match a with
  | ⟨0, _⟩ => show win1_3.index t (0 : Fin 2) * 2048 + 1 * p.val = 2048 * ib.val + p.val; rw [e0, ht]; omega
  | ⟨1, _⟩ => show win1_3.index t (1 : Fin 2) * 128 + 1 * q.val = q.val; rw [e1]; omega

/-- What a write-back writes is its block of the layer's value. -/
theorem flushed_eq (c : Dev nD) (t : Fin cfg1.N) (hf : (cfg1.win 3).flush t = true) :
    (dat1 V c).flushed 3 t
      = ((cfg1.win 3).blk t).view.read (Elt Ideal) (Cert.Gcn.aggRow (V c main_arg1) (V c main_v1) (V c main_v2)) := by
  have h3 : t.val % 4 = 3 := (flush1_3 t).mp hf
  have hN : t.val < 16 := lt_of_lt_of_eq t.isLt (show cfg1.N = 16 from N_1)
  show (cfg1.win 3).cut (grid1.coords t) ((dat1 V c).after 3 t) = _
  rw [after1_3]
  funext y
  obtain ⟨p, q, rfl⟩ : ∃ (p : Fin 2048) (q : Fin 128), y = ix2 p q := ⟨y 0, y 1, eq_ix2 y⟩
  show outsAt1 V c t.val t.isLt (ix2 p q) = _
  refine Eq.trans ?_ (oblk_read (Cert.Gcn.aggRow (aarr V c) (yarr V c) (barr V c)) t ⟨t.val / 4, by omega⟩ rfl p q).symm
  rw [Cert.Gcn.aggRow_apply, ← psum_full V c ⟨t.val / 4, by omega⟩ p q]
  refine (congrFun (outsAt_congr V c t.val (4 * (t.val / 4) + 3) t.isLt (by have hc : cfg1.N = 16 := N_1; omega) (by omega)) (ix2 p q)).trans ?_
  exact (running V c ⟨t.val / 4, by omega⟩ p q 3 (by decide) (by have hc : cfg1.N = 16 := N_1; dsimp only; omega)).trans (if_pos rfl)

/-- Every row of the result lies in the block some write-back writes. -/
theorem covered (i : S8192x128.Idx) :
    ∃ t : Fin cfg1.N, (cfg1.win 3).flush t = true ∧ i ∈ ((cfg1.win 3).blk t).view.set := by
  have hi0 : (i 0).val < 8192 := (i 0).isLt
  have hi1 : (i 1).val < 128 := (i 1).isLt
  have hN : cfg1.N = 16 := N_1
  have ht : 4 * ((i 0).val / 2048) + 3 < cfg1.N := by rw [hN]; omega
  refine ⟨⟨4 * ((i 0).val / 2048) + 3, ht⟩, (flush1_3 _).mpr (by dsimp only; omega), ?_⟩
  obtain ⟨-, -, -, -, -, -, e0, e1⟩ := idx_facts ⟨4 * ((i 0).val / 2048) + 3, ht⟩
  dsimp only at e0 e1
  show i ∈ ((View.whole main_v3).slice (win1_3.rect ⟨4 * ((i 0).val / 2048) + 3, ht⟩)).set
  rw [View.set_slice_whole, Rect.mem_set_unit]
  intro a
  match a with
  | ⟨0, _⟩ =>
    show win1_3.index ⟨4 * ((i 0).val / 2048) + 3, ht⟩ (0 : Fin 2) * 2048 ≤ (i 0).val
      ∧ (i 0).val < win1_3.index ⟨4 * ((i 0).val / 2048) + 3, ht⟩ (0 : Fin 2) * 2048 + 2048
    rw [e0]; omega
  | ⟨1, _⟩ =>
    show win1_3.index ⟨4 * ((i 0).val / 2048) + 3, ht⟩ (1 : Fin 2) * 128 ≤ (i 1).val
      ∧ (i 1).val < win1_3.index ⟨4 * ((i 0).val / 2048) + 3, ht⟩ (1 : Fin 2) * 128 + 128
    rw [e1]; omega

/-- The result array after the region: one graph-convolution layer of the three arrays the region reads. -/
theorem final (c : Dev nD) :
    (dat1 (F := Ideal) V c).arrAt 3 cfg1.N = Cert.Gcn.aggRow (V c main_arg1) (V c main_v1) (V c main_v2) :=
  (dat1 (F := Ideal) V c).arrAt_eq_of_cover 3 _ (flushed_eq V c) covered

end Array

end Cert.KernelIdeal.Region1

end
-- ==== Proof.Region2.lean ====
/-
  Region 2 of the kernel program: Y₂ = H₁ · W₂ + (the staged zero row), as one function of the arrays the region finds.

  The region is a row-blocked matrix product with a row added: the grid has four points, and point t works on rows
  2048·t … 2048·t + 2047 of the left operand x (an 8192×128 array). The right operand w (128×128) and the
  one-row array z (1×128) are read whole at every point (their block index is (0, 0)), and every point writes its
  2048×128 block of the output back. Inside a block the body forms, at the extended reals (where the narrowing to
  bf16 is the identity and a product into the zero accumulator is the plain sum),
      out(p, q) = Σ_k x(p, k) · w(k, q) + z(0, q).
  Row r of the output belongs to exactly the block of point r / 2048, where it is row r % 2048; reading the left
  operand's block at row p of point t is reading x at row 2048·t + p. So entry (r, q) of the output array depends on
  row r of x, column q of w and entry (0, q) of z only, and is the matrix product with the one-row array added to every row (`Cert.Gcn.denseRow`) of the three arrays as the region finds them.
  No law of arithmetic is used beyond re-indexing the contraction sum by its one coordinate.
-/
import proofs.«101808_j25486335935216_1_alg».proof.Defs
import proofs.«101808_j25486335935216_1_alg».proof.Proof.Gen.KernelIdeal.Frame
import proofs.«101808_j25486335935216_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Region2

open Cert.KernelIdeal Cert.KernelIdeal.Gen

/-- The offset (0, 0) of a whole-buffer access, as the constant-zero function. -/
theorem hz : (![0, 0] : Fin 2 → Nat) = fun _ => 0 := funext fun a => by fin_cases a <;> rfl

/-- The body stores once, over the whole output buffer, so what it leaves there is the stored value: the payload of
    the three loaded blocks (each load reads its whole buffer). -/
theorem out_eq (x0 : Vec Ideal S2048x128 .f32) (x1 : Vec Ideal S128x128 .f32) (x2 : Vec Ideal S1x128 .f32) :
    out2_3 x0 x1 x2 = k2_pay1 x0 x1 x2 := by
  unfold out2_3
  rw [View.canon_unit_zero hz]
  simp only [View.ld_unit_zero (S := S2048x128) hz, View.ld_unit_zero (S := S128x128) hz, View.ld_unit_zero (S := S1x128) hz]

/-! ## The product's operand indices: left (row of the output, contraction), right (contraction, column of the output) -/

/-- The left operand's row is the output's row (axis 0 is the left operand's free axis). -/
theorem lhs_ax0 (i : S2048x128.Idx) (q : Cert.KernelIdeal.dot_S2048x128_S128x128_S2048x128_1_0_0_1_n_n.contr.Idx) :
    (Cert.KernelIdeal.dot_S2048x128_S128x128_S2048x128_1_0_0_1_n_n.lhsIdx i q 0).val = (i 0).val := by
  unfold DotDims.lhsIdx
  rw [dif_neg (show ¬(0 : Fin S2048x128.rank) ∈ Cert.KernelIdeal.dot_S2048x128_S128x128_S2048x128_1_0_0_1_n_n.lhsBatch by decide), dif_pos (show (0 : Fin S2048x128.rank) ∈ Cert.KernelIdeal.dot_S2048x128_S128x128_S2048x128_1_0_0_1_n_n.lhsNonContracting by decide)]
  rfl
/-- The left operand's column is the contraction coordinate. -/
theorem lhs_ax1 (i : S2048x128.Idx) (q : Cert.KernelIdeal.dot_S2048x128_S128x128_S2048x128_1_0_0_1_n_n.contr.Idx) :
    (Cert.KernelIdeal.dot_S2048x128_S128x128_S2048x128_1_0_0_1_n_n.lhsIdx i q 1).val = (q ⟨0, by decide⟩).val :=
  Cert.KernelIdeal.dot_S2048x128_S128x128_S2048x128_1_0_0_1_n_n.lhsIdx_val_of_single rfl i q
/-- The right operand's row is the contraction coordinate. -/
theorem rhs_ax0 (i : S2048x128.Idx) (q : Cert.KernelIdeal.dot_S2048x128_S128x128_S2048x128_1_0_0_1_n_n.contr.Idx) :
    (Cert.KernelIdeal.dot_S2048x128_S128x128_S2048x128_1_0_0_1_n_n.rhsIdx i q 0).val = (q ⟨0, by decide⟩).val :=
  Cert.KernelIdeal.dot_S2048x128_S128x128_S2048x128_1_0_0_1_n_n.rhsIdx_val_of_single rfl i q
/-- The right operand's column is the output's column (axis 1 is the right operand's free axis). -/
theorem rhs_ax1 (i : S2048x128.Idx) (q : Cert.KernelIdeal.dot_S2048x128_S128x128_S2048x128_1_0_0_1_n_n.contr.Idx) :
    (Cert.KernelIdeal.dot_S2048x128_S128x128_S2048x128_1_0_0_1_n_n.rhsIdx i q 1).val = (i 1).val := by
  unfold DotDims.rhsIdx
  rw [dif_neg (show ¬(1 : Fin S128x128.rank) ∈ Cert.KernelIdeal.dot_S2048x128_S128x128_S2048x128_1_0_0_1_n_n.rhsBatch by decide), dif_pos (show (1 : Fin S128x128.rank) ∈ Cert.KernelIdeal.dot_S2048x128_S128x128_S2048x128_1_0_0_1_n_n.rhsNonContracting by decide)]
  rfl

/-- The product into the zero accumulator, at entry (p, q): the sum over the 128 contraction coordinates of the
    left operand's row p against the right operand's column q. The contraction shape has one axis of extent 128, so
    its indices are in bijection with the coordinates 0 … 127, and the sum is re-indexed along that bijection. -/
theorem matmul_at (a : FVec Ideal S2048x128 .bf16) (b : FVec Ideal S128x128 .bf16) (p : Fin 2048) (q : Fin 128) :
    FloatOps.matmul Cert.KernelIdeal.dot_S2048x128_S128x128_S2048x128_1_0_0_1_n_n none a b (constant (F := Ideal) S2048x128 .f32 0x00000000#32) (ix2 p q)
      = ∑ k : Fin 128, a (ix2 p k) * b (ix2 k q) := by
  rw [Ideal.matmul_constant_zero_apply, ← Equiv.sum_comp (ValueIdx.contrEquiv1 Cert.KernelIdeal.dot_S2048x128_S128x128_S2048x128_1_0_0_1_n_n 128 rfl rfl).symm]
  refine Finset.sum_congr rfl fun k _ => ?_
  have hk := ValueIdx.contrEquiv1_symm_val Cert.KernelIdeal.dot_S2048x128_S128x128_S2048x128_1_0_0_1_n_n 128 rfl rfl k
  have el : Cert.KernelIdeal.dot_S2048x128_S128x128_S2048x128_1_0_0_1_n_n.lhsIdx (ix2 p q) ((ValueIdx.contrEquiv1 Cert.KernelIdeal.dot_S2048x128_S128x128_S2048x128_1_0_0_1_n_n 128 rfl rfl).symm k) = ix2 p k := funext fun a => Fin.ext (by
    match a with
    | ⟨0, _⟩ => exact lhs_ax0 _ _
    | ⟨1, _⟩ => exact (lhs_ax1 _ _).trans hk)
  have er : Cert.KernelIdeal.dot_S2048x128_S128x128_S2048x128_1_0_0_1_n_n.rhsIdx (ix2 p q) ((ValueIdx.contrEquiv1 Cert.KernelIdeal.dot_S2048x128_S128x128_S2048x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- The one-row array stretched over the 2048 rows reads, at (p, q), its entry (0, q): the row axis has extent one
    and is read at 0, the column axis is carried over. -/
theorem row_at (z : Vec Ideal S1x128 .f32) (p : Fin 2048) (q : Fin 128) :
    broadcastTo S2048x128 (shapeCast S1x128 z shapeCasts_S1x128_S1x128) broadcasts_S1x128_S2048x128 (ix2 p q) = z (ix2 0 q) := by
  rw [shapeCast_self]
  refine broadcastTo_apply z broadcasts_S1x128_S2048x128 (ix2 p q) (ix2 0 q) ?_
  intro a
  match a with
  | ⟨0, _⟩ => rfl
  | ⟨1, _⟩ => rfl

/-- THE BODY AT AN ENTRY of its block (the left block is first cast to its own shape, which changes nothing): the sum over the contraction of the left block's row p against the right block's column q, plus the one-row block's entry (0, q). -/
theorem pay_at (x0 : Vec Ideal S2048x128 .f32) (x1 : Vec Ideal S128x128 .f32) (x2 : Vec Ideal S1x128 .f32) (p : Fin 2048) (q : Fin 128) :
    k2_pay1 x0 x1 x2 (ix2 p q) = (∑ k : Fin 128, x0 (ix2 p k) * x1 (ix2 k q)) + x2 (ix2 0 q) := by
  unfold k2_pay1
  refine (addf_apply _ _ _).trans ?_
  refine congrArg₂ (· + ·) ?_ (row_at x2 p q)
  refine (matmul_at _ _ p q).trans ?_
  refine Finset.sum_congr rfl fun k _ => congrArg₂ (· * ·) ?_ rfl
  exact congrFun (shapeCast_self x0 shapeCasts_S2048x128_S2048x128) (ix2 p k)

/-! ## From blocks to the array -/

variable (V : (c : Dev nD) → (b : Ref sig .tc) → Buf (Elt Ideal) ((c : Thread nD τ).loc b))

/-- The windows' block indices at every grid point: the left operand's and the output's row-block index is the
    point itself, every other block index is 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the left operand's block at point t is row 2048·t + p of the array. -/
theorem xblk_at (c : Dev nD) (t : Fin cfg2.N) (p : Fin 2048) (k : Fin 128) (r : Fin 8192) (hr : r.val = 2048 * t.val + p.val) :
    (iblk2 V c 0 t : Vec Ideal S2048x128 .f32) (ix2 p k) = (V c main_v3 : S8192x128.Idx → EReal) (ix2 r k) := by
  obtain ⟨e0, e1, -⟩ := idx_facts t
  unfold iblk2
  rw [View.read_apply]
  show V c main_v3 _ = V c main_v3 _
  congr 1
  funext a
  apply Fin.ext
  match a with
  | ⟨0, _⟩ => show win2_0.index t 0 * 2048 + 1 * p.val = r.val; rw [e0, hr]; omega
  | ⟨1, _⟩ => show win2_0.index t 1 * 128 + 1 * k.val = k.val; rw [e1]; omega

/-- The right operand's block is the whole array at every point. -/
theorem wblk_at (c : Dev nD) (t : Fin cfg2.N) (k : Fin 128) (q : Fin 128) :
    (iblk2 V c 1 t : Vec Ideal S128x128 .f32) (ix2 k q) = (V c main_arg4 : S128x128.Idx → EReal) (ix2 k q) := by
  obtain ⟨-, -, e2, e3, -⟩ := idx_facts t
  unfold iblk2
  rw [View.read_apply]
  show V c main_arg4 _ = V c main_arg4 _
  congr 1
  funext a
  apply Fin.ext
  match a with
  | ⟨0, _⟩ => show win2_1.index t 0 * 128 + 1 * k.val = k.val; rw [e2]; omega
  | ⟨1, _⟩ => show win2_1.index t 1 * 128 + 1 * q.val = q.val; rw [e3]; omega

/-- The one-row array's block is the whole array at every point. -/
theorem zblk_at (c : Dev nD) (t : Fin cfg2.N) (q : Fin 128) :
    (iblk2 V c 2 t : Vec Ideal S1x128 .f32) (ix2 0 q) = (V c main_v0 : S1x128.Idx → EReal) (ix2 0 q) := by
  obtain ⟨-, -, -, -, e4, e5, -⟩ := idx_facts t
  unfold iblk2
  rw [View.read_apply]
  show V c main_v0 _ = V c main_v0 _
  congr 1
  funext a
  apply Fin.ext
  match a with
  | ⟨0, _⟩ => show win2_2.index t 0 * 1 + 1 * 0 = 0; rw [e4]
  | ⟨1, _⟩ => show win2_2.index t 1 * 128 + 1 * q.val = q.val; rw [e5]; omega

/-- Entry (p, q) of the output's block at point t sits at (2048·t + p, q) of the output array. -/
theorem oblk_emb (t : Fin cfg2.N) (p : Fin 2048) (q : Fin 128) (r : Fin 8192) (hr : r.val = 2048 * t.val + p.val) :
    ((cfg2.win 3).blk t).view.emb (ix2 p q) = (ix2 r q : S8192x128.Idx) := by
  obtain ⟨-, -, -, -, -, -, e6, e7⟩ := idx_facts t
  funext a
  apply Fin.ext
  match a with
  | ⟨0, _⟩ => show win2_3.index t 0 * 2048 + 1 * p.val = r.val; rw [e6, hr]; omega
  | ⟨1, _⟩ => show win2_3.index t 1 * 128 + 1 * q.val = q.val; rw [e7]; omega

/-- WHAT POINT t WRITES BACK is block t of the matrix product with the one-row array added to every row (`Cert.Gcn.denseRow`) of the three arrays: at entry (p, q) of the block both sides are
    Σ_k x(r, k) · w(k, q) + z(0, q) with r = 2048·t + p. -/
theorem flushed_eq (c : Dev nD) (t : Fin cfg2.N) :
    (dat2 (F := Ideal) V c).flushed 3 t = ((cfg2.win 3).blk t).view.read (Elt Ideal) (Cert.Gcn.denseRow (V c main_v3) (V c main_arg4) (V c main_v0)) := by
  show (cfg2.win 3).cut (grid2.coords t) ((dat2 V c).after 3 t) = _
  rw [after2_3]
  have ht : t.val < 4 := lt_of_lt_of_eq t.isLt N_2
  funext y
  obtain ⟨p, q, rfl⟩ : ∃ (p : Fin 2048) (q : Fin 128), y = ix2 p q := ⟨y 0, y 1, eq_ix2 y⟩
  have hp : p.val < 2048 := p.isLt
  show out2_3 (iblk2 V c 0 t) (iblk2 V c 1 t) (iblk2 V c 2 t) (ix2 p q) = Cert.Gcn.denseRow (V c main_v3) (V c main_arg4) (V c main_v0) (((cfg2.win 3).blk t).view.emb (ix2 p q))
  rw [oblk_emb t p q ⟨2048 * t.val + p.val, by omega⟩ rfl, Cert.Gcn.denseRow_apply]
  refine (congrFun (out_eq (iblk2 V c 0 t) (iblk2 V c 1 t) (iblk2 V c 2 t)) (ix2 p q)).trans ?_
  refine (pay_at (iblk2 V c 0 t) (iblk2 V c 1 t) (iblk2 V c 2 t) p q).trans ?_
  refine congrArg₂ (· + ·) (Finset.sum_congr rfl fun k _ => congrArg₂ (· * ·) ?_ ?_) ?_
  · exact xblk_at V c t p k ⟨2048 * t.val + p.val, by omega⟩ rfl
  · exact wblk_at V c t k q
  · exact zblk_at V c t q

/-- An index of the output array is in point t's block iff each coordinate is in the block's range on its axis. -/
theorem mem_blk (t : Fin cfg2.N) (i : S8192x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole main_v4).slice (win2_3.rect t)).set ↔ _
  rw [View.set_slice_whole, Rect.mem_set_unit]
  exact Iff.rfl

/-- The four blocks cover the output array: row r lies in the block of point r / 2048 (r < 8192, so the quotient is
    below 4), and every column lies in the block's one column range. -/
theorem cover (i : S8192x128.Idx) : ∃ t : Fin cfg2.N, (cfg2.win 3).flush t = true ∧ i ∈ ((cfg2.win 3).blk t).view.set := by
  have hi0 : (i 0).val < 8192 := (i 0).isLt
  have hi1 : (i 1).val < 128 := (i 1).isLt
  have hN : cfg2.N = 4 := N_2
  obtain ⟨t, htv⟩ : ∃ t : Fin cfg2.N, t.val = (i 0).val / 2048 := ⟨⟨(i 0).val / 2048, by rw [hN]; omega⟩, rfl⟩
  obtain ⟨-, -, -, -, -, -, e6, e7⟩ := idx_facts t
  refine ⟨t, flush2_3 t, ?_⟩
  rw [mem_blk]
  intro a
  match a with
  | ⟨0, _⟩ => show win2_3.index t 0 * 2048 ≤ (i 0).val ∧ (i 0).val < win2_3.index t 0 * 2048 + 2048; rw [e6, htv]; omega
  | ⟨1, _⟩ => show win2_3.index t 1 * 128 ≤ (i 1).val ∧ (i 1).val < win2_3.index t 1 * 128 + 128; rw [e7]; omega

/-- THE OUTPUT ARRAY after the region: every point writes back its block of the matrix product with the one-row array added to every row (`Cert.Gcn.denseRow`), and the blocks cover the array. -/
theorem final (c : Dev nD) :
    (dat2 (F := Ideal) V c).arrAt 3 cfg2.N = Cert.Gcn.denseRow (V c main_v3) (V c main_arg4) (V c main_v0) :=
  (dat2 (F := Ideal) V c).arrAt_eq_of_cover 3 _ (fun t _ => flushed_eq V c t) cover

end Cert.KernelIdeal.Region2

end
-- ==== Proof.Region3.lean ====
/-
  One graph-convolution layer computed as a blocked matrix product.

  The layer is H = max (A · Y + b, 0): A is 8192×8192, Y is 8192×128, b is a 1×128 row added to every row of the
  product, and the maximum with 0 is taken entry by entry. The program walks a 4 × 4 grid. Grid point t = 4·ib + kb
  works on row block ib (rows 2048·ib … 2048·ib + 2047 of H) and on reduction block kb (columns 2048·kb … of A against
  rows 2048·kb … of Y). One 2048×128 output block is kept across the four reduction steps of a row block: step 0 sets
  it to zero and adds the first block product, steps 1 and 2 add theirs, step 3 adds the last one and then adds the
  bias row and takes the positive part; only after step 3 is the block written to rows 2048·ib … of the result.

  Read over the extended reals, where a change of float format is the identity and a block product into a zero
  accumulator is a plain finite sum, entry (p, q) of the kept block after step kb < 3 is the sum of the first
  2048·(kb + 1) terms a(2048·ib + p, k) · y(k, q), and after step 3 it is max (Σ_{k < 8192} a(2048·ib + p, k) · y(k, q)
  + b(0, q), 0). This is proved by induction on the reduction step; the only law used is that a sum over an initial
  segment of the naturals splits into a shorter initial segment and the rest, which holds in every commutative monoid,
  so no entry has to be finite. The four write-backs cover the 8192 rows, hence the result array is the layer.
-/
import proofs.«101808_j25486335935216_1_alg».proof.Defs
import proofs.«101808_j25486335935216_1_alg».proof.Proof.Gen.KernelIdeal.Frame
import proofs.«101808_j25486335935216_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region3

open Cert.KernelIdeal Cert.KernelIdeal.Gen

/-! ## What one grid point leaves in the output block

The body at a grid point stores whole 2048×128 blocks into the output's staging buffer. At the first reduction
step it stores the zero block and then the accumulation read back over it; at a middle step it stores the
accumulation over what the step before left; at the last step it stores the accumulation and then, over that,
the bias row added and the positive part taken. In every case the last whole-block store is what remains. -/

section Pieces
variable {F : FTy → Type} [FloatOps F]

/-- The offsets of a whole-block access are zero on both axes. -/
theorem hz : (![0, 0] : Fin 2 → Nat) = fun _ => 0 := funext fun a => by fin_cases a <;> rfl

/-- First reduction step: the zero block, then the product of the two input blocks added to it. -/
theorem out_A (c : Dev nD) (i : grid3.Coords) (a2 : Memref sig .tc .vmem S2048x2048 .f32) (h2 : a2.IsWhole)
    (a3 : Memref sig .tc .vmem S2048x128 .f32) (h3 : a3.IsWhole) (a4 : Memref sig .tc .vmem S1x128 .f32) (h4 : a4.IsWhole)
    (a5 : Memref sig .tc .vmem S2048x128 .f32) (h5 : a5.IsWhole) (hc0 : cond3_0 i) (hc1 : ¬cond3_1 i)
    (x0 : Vec F S2048x2048 .f32) (x1 : Vec F S2048x128 .f32) (x2 : Vec F S1x128 .f32) :
    out3_A_3 c i a2 h2 a3 h3 a4 h4 a5 h5 hc0 hc1 x0 x1 x2 = k3_pay2 x0 x1 (k3_pay1 (F := F)) := by
  unfold out3_A_3
  rw [View.read_writes_eq_canon _ _ _ (cover3_A_3 c i a2 h2 a3 h3 a4 h4 a5 h5 hc0 hc1 x0 x1 x2)]
  unfold kernelRun3_A
  dsimp only
  sl_unfold_words
  rw [View.canon_cons_unit_zero (S := S2048x128) hz, View.readCov_unit_zero (S := S2048x128) _ hz]
  simp only [View.readAt_eq_ld, h2.read_unread, h3.read_unread, View.ld_unit_zero (S := S2048x2048) hz,
    View.ld_unit_zero (S := S2048x128) hz]

/-- A middle reduction step: the product of the two input blocks added to what the output block held. -/
theorem out_B (c : Dev nD) (i : grid3.Coords) (a2 : Memref sig .tc .vmem S2048x2048 .f32) (h2 : a2.IsWhole)
    (a3 : Memref sig .tc .vmem S2048x128 .f32) (h3 : a3.IsWhole) (a4 : Memref sig .tc .vmem S1x128 .f32) (h4 : a4.IsWhole)
    (a5 : Memref sig .tc .vmem S2048x128 .f32) (h5 : a5.IsWhole) (hc0 : ¬cond3_0 i) (hc1 : ¬cond3_1 i)
    (x0 : Vec F S2048x2048 .f32) (x1 : Vec F S2048x128 .f32) (x2 : Vec F S1x128 .f32) (xo : Vec F S2048x128 .f32) :
    out3_B_3 c i a2 h2 a3 h3 a4 h4 a5 h5 hc0 hc1 x0 x1 x2 xo = k3_pay2 x0 x1 xo := by
  unfold out3_B_3
  rw [View.read_writes_eq_canon _ _ _ (cover3_B_3 c i a2 h2 a3 h3 a4 h4 a5 h5 hc0 hc1 x0 x1 x2 xo)]
  unfold kernelRun3_B
  dsimp only
  sl_unfold_words
  rw [View.canon_unit_zero hz]
  simp only [View.readAt_eq_ld, h2.read_unread, h3.read_unread, h5.read_unread, View.ld_unit_zero (S := S2048x2048) hz,
    View.ld_unit_zero (S := S2048x128) hz]

/-- The last reduction step: the accumulation as at a middle step, then the bias row added and the positive part. -/
theorem out_C (c : Dev nD) (i : grid3.Coords) (a2 : Memref sig .tc .vmem S2048x2048 .f32) (h2 : a2.IsWhole)
    (a3 : Memref sig .tc .vmem S2048x128 .f32) (h3 : a3.IsWhole) (a4 : Memref sig .tc .vmem S1x128 .f32) (h4 : a4.IsWhole)
    (a5 : Memref sig .tc .vmem S2048x128 .f32) (h5 : a5.IsWhole) (hc0 : ¬cond3_0 i) (hc1 : cond3_1 i)
    (x0 : Vec F S2048x2048 .f32) (x1 : Vec F S2048x128 .f32) (x2 : Vec F S1x128 .f32) (xo : Vec F S2048x128 .f32) :
    out3_C_3 c i a2 h2 a3 h3 a4 h4 a5 h5 hc0 hc1 x0 x1 x2 xo = k3_pay3 (k3_pay2 x0 x1 xo) x2 := by
  unfold out3_C_3
  rw [View.read_writes_eq_canon _ _ _ (cover3_C_3 c i a2 h2 a3 h3 a4 h4 a5 h5 hc0 hc1 x0 x1 x2 xo)]
  unfold kernelRun3_C
  dsimp only
  sl_unfold_words
  rw [View.canon_cons_unit_zero (S := S2048x128) hz, View.readCov_unit_zero (S := S2048x128) _ hz]
  simp only [View.readAt_eq_ld, h2.read_unread, h3.read_unread, h4.read_unread, h5.read_unread,
    View.ld_unit_zero (S := S2048x2048) hz, View.ld_unit_zero (S := S2048x128) hz, View.ld_unit_zero (S := S1x128) hz]

end Pieces

/-! ## The three stored values, entry by entry, over the extended reals

Over the extended reals the change of float format is the identity and a matrix product into a zero accumulator
is the plain sum over the contracted axis. So entry (p, q) of the accumulation is the old entry plus the sum over
the 2048 columns k of the left block's (p, k) times the right block's (k, q); entry (p, q) of the final value is
the positive part of the accumulated entry plus entry q of the bias row. -/

section Payloads

/-- Row coordinate of the left operand of the block product: the output's row. -/
theorem lhs_0 (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
/-- Column coordinate of the left operand: the contracted index. -/
theorem lhs_1 (i : S2048x128.Idx) (q : dot_S2048x2048_S2048x128_S2048x128_1_0_0_1_n_n.contr.Idx) :
    (dot_S2048x2048_S2048x128_S2048x128_1_0_0_1_n_n.lhsIdx i q 1).val = (q ⟨0, by decide⟩).val :=
  dot_S2048x2048_S2048x128_S2048x128_1_0_0_1_n_n.lhsIdx_val_of_single rfl i q
/-- Row coordinate of the right operand: the contracted index. -/
theorem rhs_0 (i : S2048x128.Idx) (q : dot_S2048x2048_S2048x128_S2048x128_1_0_0_1_n_n.contr.Idx) :
    (dot_S2048x2048_S2048x128_S2048x128_1_0_0_1_n_n.rhsIdx i q 0).val = (q ⟨0, by decide⟩).val :=
  dot_S2048x2048_S2048x128_S2048x128_1_0_0_1_n_n.rhsIdx_val_of_single rfl i q
/-- Column coordinate of the right operand: the output's column. -/
theorem rhs_1 (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The block product into the zero accumulator, at (p, q): the sum over the 2048 contracted positions. -/
theorem blockProd_apply (l : FVec Ideal S2048x2048 .bf16) (r : FVec Ideal S2048x128 .bf16) (p : Fin 2048) (q : Fin 128) :
    FloatOps.matmul dot_S2048x2048_S2048x128_S2048x128_1_0_0_1_n_n none l r (constant (F := Ideal) S2048x128 .f32 0x00000000#32) (ix2 p q)
      = ∑ k : Fin 2048, l (ix2 p k) * r (ix2 k q) := by
  rw [Ideal.matmul_constant_zero_apply, ← Equiv.sum_comp (contrEquiv1 dot_S2048x2048_S2048x128_S2048x128_1_0_0_1_n_n 2048 rfl rfl).symm]
  refine Finset.sum_congr rfl fun k _ => ?_
  have hk := contrEquiv1_symm_val dot_S2048x2048_S2048x128_S2048x128_1_0_0_1_n_n 2048 rfl rfl k
  have el : dot_S2048x2048_S2048x128_S2048x128_1_0_0_1_n_n.lhsIdx (ix2 p q) ((contrEquiv1 dot_S2048x2048_S2048x128_S2048x128_1_0_0_1_n_n 2048 rfl rfl).symm k) = ix2 p k := funext fun a => Fin.ext (by
    match a with
    | ⟨0, _⟩ => exact lhs_0 _ _
    | ⟨1, _⟩ => exact (lhs_1 _ _).trans hk)
  have er : dot_S2048x2048_S2048x128_S2048x128_1_0_0_1_n_n.rhsIdx (ix2 p q) ((contrEquiv1 dot_S2048x2048_S2048x128_S2048x128_1_0_0_1_n_n 2048 rfl rfl).symm k) = ix2 k q := funext fun a => Fin.ext (by
    match a with
    | ⟨0, _⟩ => exact (rhs_0 _ _).trans hk
    | ⟨1, _⟩ => exact rhs_1 _ _)
  rw [el, er]

/-- The block the first step stores is zero everywhere. -/
theorem pay1_apply (p : Fin 2048) (q : Fin 128) : k3_pay1 (F := Ideal) (ix2 p q) = 0 := by
  unfold k3_pay1
  exact Ideal.ofBits_zero_f32

/-- The accumulation at (p, q): the old entry plus row p of the left block against column q of the right block. -/
theorem pay2_apply (x0 : Vec Ideal S2048x2048 .f32) (x1 : Vec Ideal S2048x128 .f32) (xo : Vec Ideal S2048x128 .f32)
    (p : Fin 2048) (q : Fin 128) :
    k3_pay2 x0 x1 xo (ix2 p q) = xo (ix2 p q) + ∑ k : Fin 2048, x0 (ix2 p k) * x1 (ix2 k q) := by
  unfold k3_pay2
  show shapeCast S2048x128 xo shapeCasts_S2048x128_S2048x128 (ix2 p q)
      + FloatOps.matmul dot_S2048x2048_S2048x128_S2048x128_1_0_0_1_n_n none (truncf .bf16 x0 bitsLt_bf16_f32)
          (truncf .bf16 (shapeCast S2048x128 x1 shapeCasts_S2048x128_S2048x128) bitsLt_bf16_f32)
          (constant (F := Ideal) S2048x128 .f32 0x00000000#32) (ix2 p q) = _
  rw [shapeCast_self, shapeCast_self, blockProd_apply]
  rfl

/-- The final value at (p, q): the positive part of the accumulated entry plus entry q of the bias row. -/
theorem pay3_apply (acc : Vec Ideal S2048x128 .f32) (b : Vec Ideal S1x128 .f32) (p : Fin 2048) (q : Fin 128) :
    k3_pay3 acc b (ix2 p q) = max (acc (ix2 p q) + b (ix2 0 q)) 0 := by
  unfold k3_pay3
  show max (shapeCast S2048x128 acc shapeCasts_S2048x128_S2048x128 (ix2 p q)
      + broadcastTo S2048x128 (shapeCast S1x128 b shapeCasts_S1x128_S1x128) broadcasts_S1x128_S2048x128 (ix2 p q))
      (Ideal.ofBits .f32 0x00000000#32) = _
  rw [shapeCast_self, shapeCast_self, Ideal.ofBits_zero_f32,
    broadcastTo_apply b broadcasts_S1x128_S2048x128 (ix2 p q) (ix2 0 q) (fun a => by
      match a with
      | ⟨0, _⟩ => rfl
      | ⟨1, _⟩ => rfl)]

end Payloads

/-! ## The blocks the windows read

Grid point t = 4·ib + kb reads from the 8192×8192 matrix the 2048×2048 block of rows 2048·ib … and columns
2048·kb …, from the 8192×128 matrix the 2048 rows 2048·kb … (all 128 columns), and the whole 1×128 bias row. -/

section Blocks
variable (V : (c : Dev nD) → (b : Ref sig .tc) → Buf (Elt Ideal) ((c : Thread nD τ).loc b))

/-- The square matrix, -/
abbrev aarr (c : Dev nD) : Vec Ideal S8192x8192 .f32 := V c main_arg1
/-- the tall matrix it multiplies, -/
abbrev yarr (c : Dev nD) : Vec Ideal S8192x128 .f32 := V c main_v4
/-- and the bias row, as the region finds them. -/
abbrev barr (c : Dev nD) : Vec Ideal S1x128 .f32 := V c main_v5
/-- The square matrix's block at a grid point, -/
abbrev ablk (c : Dev nD) (t : Fin cfg3.N) : Vec Ideal S2048x2048 .f32 := iblk3 V c 0 t
/-- the tall matrix's, -/
abbrev yblk (c : Dev nD) (t : Fin cfg3.N) : Vec Ideal S2048x128 .f32 := iblk3 V c 1 t
/-- and the bias row's (all of it). -/
abbrev bblk (c : Dev nD) (t : Fin cfg3.N) : Vec Ideal S1x128 .f32 := iblk3 V c 2 t

/-- The block indices of the four windows at every grid point: row block t / 4 and reduction block t % 4. -/
theorem idx_facts : ∀ t : Fin cfg3.N, win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = 0 ∧ win3_2.index t (1 : Fin 2) = 0
    ∧ win3_3.index t (0 : Fin 2) = t.val / 4 ∧ win3_3.index t (1 : Fin 2) = 0 :=
  (by decide +kernel : ∀ t : Fin grid3.N, _)

/-- Row p of row block ib, as a row of the whole matrix. -/
abbrev rowOf (ib : Fin 4) (p : Fin 2048) : Fin 8192 := ⟨2048 * ib.val + p.val, by omega⟩

/-- Entry (p, k) of the square matrix's block is entry (2048·ib + p, 2048·kb + k) of the matrix. -/
theorem ablk_apply (c : Dev nD) (t : Fin cfg3.N) (ib : Fin 4) (kb : ℕ) (hkb : kb < 4) (ht : t.val = 4 * ib.val + kb)
    (p k : Fin 2048) :
    ablk V c t (ix2 p k) = aarr V c (ix2 (rowOf ib p) (⟨2048 * kb + k.val, by omega⟩ : Fin 8192)) := by
  obtain ⟨e0, e1, -⟩ := idx_facts t
  show iblk3 V c 0 t (ix2 p k) = V c main_arg1 _
  unfold iblk3
  rw [View.read_apply]
  show V c main_arg1 _ = V c main_arg1 _
  refine congrArg (V c main_arg1) (funext fun a => Fin.ext ?_)
  match a with
  | ⟨0, _⟩ => show win3_0.index t (0 : Fin 2) * 2048 + 1 * p.val = 2048 * ib.val + p.val; rw [e0]; omega
  | ⟨1, _⟩ => show win3_0.index t (1 : Fin 2) * 2048 + 1 * k.val = 2048 * kb + k.val; rw [e1]; omega

/-- Entry (k, q) of the tall matrix's block is entry (2048·kb + k, q) of the matrix. -/
theorem yblk_apply (c : Dev nD) (t : Fin cfg3.N) (ib : Fin 4) (kb : ℕ) (hkb : kb < 4) (ht : t.val = 4 * ib.val + kb)
    (k : Fin 2048) (q : Fin 128) :
    yblk V c t (ix2 k q) = yarr V c (ix2 (⟨2048 * kb + k.val, by omega⟩ : Fin 8192) q) := by
  obtain ⟨-, -, e0, e1, -⟩ := idx_facts t
  show iblk3 V c 1 t (ix2 k q) = V c main_v4 _
  unfold iblk3
  rw [View.read_apply]
  show V c main_v4 _ = V c main_v4 _
  refine congrArg (V c main_v4) (funext fun a => Fin.ext ?_)
  match a with
  | ⟨0, _⟩ => show win3_1.index t (0 : Fin 2) * 2048 + 1 * k.val = 2048 * kb + k.val; rw [e0]; omega
  | ⟨1, _⟩ => show win3_1.index t (1 : Fin 2) * 128 + 1 * q.val = q.val; rw [e1]; omega

/-- The bias row's block is the bias row. -/
theorem bblk_apply (c : Dev nD) (t : Fin cfg3.N) (q : Fin 128) :
    bblk V c t (ix2 0 q) = barr V c (ix2 0 q) := by
  obtain ⟨-, -, -, -, e0, e1, -⟩ := idx_facts t
  show iblk3 V c 2 t (ix2 0 q) = V c main_v5 _
  unfold iblk3
  rw [View.read_apply]
  show V c main_v5 _ = V c main_v5 _
  refine congrArg (V c main_v5) (funext fun a => Fin.ext ?_)
  match a with
  | ⟨0, _⟩ => show win3_2.index t (0 : Fin 2) * 1 + 1 * 0 = 0; rw [e0]
  | ⟨1, _⟩ => show win3_2.index t (1 : Fin 2) * 128 + 1 * q.val = q.val; rw [e1]; omega

end Blocks

/-! ## The running value of the output block

Fix a row block ib, a row p in it and a column q. Entry (2048·ib + p, q) of the product is a sum of 8192 terms;
reduction step kb adds the 2048 terms k = 2048·kb … 2048·kb + 2047 to what the output block held. So after step
kb < 3 the block's entry (p, q) is the sum of the first 2048·(kb + 1) terms, and after step 3 it is the positive part
of the whole sum plus the bias. Only the splitting of a sum over an initial segment of the naturals is used:
addition on the extended reals is commutative and associative, and no entry needs to be finite. -/

section Invariant
variable (V : (c : Dev nD) → (b : Ref sig .tc) → Buf (Elt Ideal) ((c : Thread nD τ).loc b))

/-- Term k of entry (2048·ib + p, q) of the product (zero past the last column, so that sums may run over ℕ). -/
def term (c : Dev nD) (ib : Fin 4) (p : Fin 2048) (q : Fin 128) (k : ℕ) : EReal :=
  if h : k < 8192 then aarr V c (ix2 (rowOf ib p) (⟨k, h⟩ : Fin 8192)) * yarr V c (ix2 (⟨k, h⟩ : Fin 8192) q) else 0

/-- The sum of its first m terms. -/
def psum (c : Dev nD) (ib : Fin 4) (p : Fin 2048) (q : Fin 128) (m : ℕ) : EReal :=
  ∑ k ∈ Finset.range m, term V c ib p q k

/-- The first m + 2048 terms are the first m and the 2048 after them. -/
theorem psum_add (c : Dev nD) (ib : Fin 4) (p : Fin 2048) (q : Fin 128) (m : ℕ) :
    psum V c ib p q (m + 2048) = psum V c ib p q m + ∑ j ∈ Finset.range 2048, term V c ib p q (m + j) :=
  Finset.sum_range_add _ _ _

/-- All 8192 terms: the entry of the product. -/
theorem psum_full (c : Dev nD) (ib : Fin 4) (p : Fin 2048) (q : Fin 128) :
    psum V c ib p q 8192 = ∑ k : Fin 8192, aarr V c (ix2 (rowOf ib p) k) * yarr V c (ix2 k q) := by
  unfold psum
  rw [Finset.sum_range]
  refine Finset.sum_congr rfl fun k _ => ?_
  unfold term
  rw [dif_pos k.isLt]

/-- What reduction step kb adds at (p, q): row p of the left block against column q of the right block is the
    2048 terms from 2048·kb on. -/
theorem block_sum (c : Dev nD) (t : Fin cfg3.N) (ib : Fin 4) (kb : ℕ) (hkb : kb < 4) (ht : t.val = 4 * ib.val + kb)
    (p : Fin 2048) (q : Fin 128) :
    ∑ k : Fin 2048, ablk V c t (ix2 p k) * yblk V c t (ix2 k q)
      = ∑ j ∈ Finset.range 2048, term V c ib p q (2048 * kb + j) := by
  rw [Finset.sum_range]
  refine Finset.sum_congr rfl fun k _ => ?_
  rw [ablk_apply V c t ib kb hkb ht p k, yblk_apply V c t ib kb hkb ht k q]
  unfold term
  rw [dif_pos (show 2048 * kb + k.val < 8192 by omega)]

/-- After a first step the entry is zero plus the step's 2048 terms. -/
theorem step_first (c : Dev nD) (t : Fin cfg3.N) (h0 : t.val % 4 = 0) (h1 : ¬t.val % 4 = 3) (p : Fin 2048) (q : Fin 128) :
    outsAt3 V c t.val t.isLt (ix2 p q) = 0 + ∑ k : Fin 2048, ablk V c t (ix2 p k) * yblk V c t (ix2 k q) := by
  rw [outsAt3_A V c t h0 h1]
  refine (congrFun (out_A (F := Ideal) c (grid3.coords t) (ms3_0 t) (hs3_0 t) (ms3_1 t) (hs3_1 t) (ms3_2 t) (hs3_2 t)
    (ms3_3 t) (hs3_3 t) ((hcond3_0 t).mpr h0) (fun h => h1 ((hcond3_1 t).mp h)) (ablk V c t) (yblk V c t) (bblk V c t)) (ix2 p q)).trans ?_
  refine (pay2_apply (ablk V c t) (yblk V c t) (k3_pay1 (F := Ideal)) p q).trans ?_
  rw [pay1_apply]

/-- After a middle step it is what the step before left plus the step's 2048 terms. -/
theorem step_mid (c : Dev nD) (t : Fin cfg3.N) (h0 : ¬t.val % 4 = 0) (h1 : ¬t.val % 4 = 3) (p : Fin 2048) (q : Fin 128) :
    outsAt3 V c t.val t.isLt (ix2 p q)
      = outsAt3 V c (t.val - 1) (Nat.lt_of_le_of_lt (Nat.sub_le _ _) t.isLt) (ix2 p q)
        + ∑ k : Fin 2048, ablk V c t (ix2 p k) * yblk V c t (ix2 k q) := by
  rw [outsAt3_B V c t h0 h1]
  refine (congrFun (out_B (F := Ideal) c (grid3.coords t) (ms3_0 t) (hs3_0 t) (ms3_1 t) (hs3_1 t) (ms3_2 t) (hs3_2 t)
    (ms3_3 t) (hs3_3 t) (fun h => h0 ((hcond3_0 t).mp h)) (fun h => h1 ((hcond3_1 t).mp h)) (ablk V c t) (yblk V c t) (bblk V c t)
    (outsAt3 V c (t.val - 1) (Nat.lt_of_le_of_lt (Nat.sub_le _ _) t.isLt))) (ix2 p q)).trans ?_
  exact pay2_apply (ablk V c t) (yblk V c t) (outsAt3 V c (t.val - 1) (Nat.lt_of_le_of_lt (Nat.sub_le _ _) t.isLt)) p q

/-- After the last step it is the positive part of (what the step before left plus the step's terms) plus the bias. -/
theorem step_last (c : Dev nD) (t : Fin cfg3.N) (h0 : ¬t.val % 4 = 0) (h1 : t.val % 4 = 3) (p : Fin 2048) (q : Fin 128) :
    outsAt3 V c t.val t.isLt (ix2 p q)
      = max ((outsAt3 V c (t.val - 1) (Nat.lt_of_le_of_lt (Nat.sub_le _ _) t.isLt) (ix2 p q)
        + ∑ k : Fin 2048, ablk V c t (ix2 p k) * yblk V c t (ix2 k q)) + barr V c (ix2 0 q)) 0 := by
  rw [outsAt3_C V c t h0 h1]
  refine (congrFun (out_C (F := Ideal) c (grid3.coords t) (ms3_0 t) (hs3_0 t) (ms3_1 t) (hs3_1 t) (ms3_2 t) (hs3_2 t)
    (ms3_3 t) (hs3_3 t) (fun h => h0 ((hcond3_0 t).mp h)) ((hcond3_1 t).mpr h1) (ablk V c t) (yblk V c t) (bblk V c t)
    (outsAt3 V c (t.val - 1) (Nat.lt_of_le_of_lt (Nat.sub_le _ _) t.isLt))) (ix2 p q)).trans ?_
  refine (pay3_apply (k3_pay2 (ablk V c t) (yblk V c t) (outsAt3 V c (t.val - 1) (Nat.lt_of_le_of_lt (Nat.sub_le _ _) t.isLt)))
    (bblk V c t) p q).trans ?_
  rw [pay2_apply (ablk V c t) (yblk V c t) (outsAt3 V c (t.val - 1) (Nat.lt_of_le_of_lt (Nat.sub_le _ _) t.isLt)) p q,
    bblk_apply V c t q]

/-- The running contents depend on the point's number only. -/
theorem outsAt_congr (c : Dev nD) (n m : ℕ) (hn : n < cfg3.N) (hm : m < cfg3.N) (e : n = m) :
    outsAt3 V c n hn = outsAt3 V c m hm := by
  subst e; rfl

/-- THE INVARIANT, by induction on the reduction step within a row block. -/
theorem running (c : Dev nD) (ib : Fin 4) (p : Fin 2048) (q : Fin 128) :
    ∀ (kb : ℕ) (hkb : kb < 4) (hn : 4 * ib.val + kb < cfg3.N),
      outsAt3 V c (4 * ib.val + kb) hn (ix2 p q)
        = if kb = 3 then max (psum V c ib p q 8192 + barr V c (ix2 0 q)) 0 else psum V c ib p q (2048 * (kb + 1))
  | 0, hkb, hn => by
    rw [if_neg (by decide)]
    refine (step_first V c ⟨4 * ib.val + 0, hn⟩ (by dsimp only; omega) (by dsimp only; omega) p q).trans ?_
    rw [block_sum V c ⟨4 * ib.val + 0, hn⟩ ib 0 hkb rfl p q, zero_add]
    unfold psum
    refine Finset.sum_congr rfl fun j _ => ?_
    rw [Nat.mul_zero, Nat.zero_add]
  | kb + 1, hkb, hn => by
    have ih := running c ib p q kb (by omega) (by omega)
    rw [if_neg (by omega)] at ih
    have hprev : outsAt3 V c ((⟨4 * ib.val + (kb + 1), hn⟩ : Fin cfg3.N).val - 1)
        (Nat.lt_of_le_of_lt (Nat.sub_le _ _) (⟨4 * ib.val + (kb + 1), hn⟩ : Fin cfg3.N).isLt) (ix2 p q)
          = psum V c ib p q (2048 * (kb + 1)) :=
      (congrFun (outsAt_congr V c _ _ _ _ (by dsimp only; omega)) (ix2 p q)).trans ih
    by_cases h3 : kb + 1 = 3
    · rw [if_pos h3]
      refine (step_last V c ⟨4 * ib.val + (kb + 1), hn⟩ (by dsimp only; omega) (by dsimp only; omega) p q).trans ?_
      rw [hprev, block_sum V c ⟨4 * ib.val + (kb + 1), hn⟩ ib (kb + 1) hkb rfl p q, ← psum_add,
        show 2048 * (kb + 1) + 2048 = 8192 by omega]
    · rw [if_neg h3]
      refine (step_mid V c ⟨4 * ib.val + (kb + 1), hn⟩ (by dsimp only; omega) (by dsimp only; omega) p q).trans ?_
      rw [hprev, block_sum V c ⟨4 * ib.val + (kb + 1), hn⟩ ib (kb + 1) hkb rfl p q, ← psum_add,
        show 2048 * (kb + 1) + 2048 = 2048 * (kb + 1 + 1) by omega]

end Invariant

/-! ## From blocks to the array

The output block of row block ib is written back once, after reduction step 3, to rows 2048·ib … of the result. Row r
of the result is therefore written by grid point 4·(r / 2048) + 3, and the four write-backs cover all 8192 rows. -/

section Array
variable (V : (c : Dev nD) → (b : Ref sig .tc) → Buf (Elt Ideal) ((c : Thread nD τ).loc b))

/-- Entry (p, q) of the output block at a point of row block ib is entry (2048·ib + p, q) of the array. -/
theorem oblk_read (G : Vec Ideal S8192x128 .f32) (t : Fin cfg3.N) (ib : Fin 4) (ht : t.val / 4 = ib.val)
    (p : Fin 2048) (q : Fin 128) :
    ((cfg3.win 3).blk t).view.read (Elt Ideal) G (ix2 p q) = G (ix2 (rowOf ib p) q) := by
  obtain ⟨-, -, -, -, -, -, e0, e1⟩ := idx_facts t
  rw [View.read_apply]
  show G _ = G _
  refine congrArg G (funext fun a => Fin.ext ?_)
  match a with
  | ⟨0, _⟩ => show win3_3.index t (0 : Fin 2) * 2048 + 1 * p.val = 2048 * ib.val + p.val; rw [e0, ht]; omega
  | ⟨1, _⟩ => show win3_3.index t (1 : Fin 2) * 128 + 1 * q.val = q.val; rw [e1]; omega

/-- What a write-back writes is its block of the layer's value. -/
theorem flushed_eq (c : Dev nD) (t : Fin cfg3.N) (hf : (cfg3.win 3).flush t = true) :
    (dat3 V c).flushed 3 t
      = ((cfg3.win 3).blk t).view.read (Elt Ideal) (Cert.Gcn.aggRow (V c main_arg1) (V c main_v4) (V c main_v5)) := by
  have h3 : t.val % 4 = 3 := (flush3_3 t).mp hf
  have hN : t.val < 16 := lt_of_lt_of_eq t.isLt (show cfg3.N = 16 from N_3)
  show (cfg3.win 3).cut (grid3.coords t) ((dat3 V c).after 3 t) = _
  rw [after3_3]
  funext y
  obtain ⟨p, q, rfl⟩ : ∃ (p : Fin 2048) (q : Fin 128), y = ix2 p q := ⟨y 0, y 1, eq_ix2 y⟩
  show outsAt3 V c t.val t.isLt (ix2 p q) = _
  refine Eq.trans ?_ (oblk_read (Cert.Gcn.aggRow (aarr V c) (yarr V c) (barr V c)) t ⟨t.val / 4, by omega⟩ rfl p q).symm
  rw [Cert.Gcn.aggRow_apply, ← psum_full V c ⟨t.val / 4, by omega⟩ p q]
  refine (congrFun (outsAt_congr V c t.val (4 * (t.val / 4) + 3) t.isLt (by have hc : cfg3.N = 16 := N_3; omega) (by omega)) (ix2 p q)).trans ?_
  exact (running V c ⟨t.val / 4, by omega⟩ p q 3 (by decide) (by have hc : cfg3.N = 16 := N_3; dsimp only; omega)).trans (if_pos rfl)

/-- Every row of the result lies in the block some write-back writes. -/
theorem covered (i : S8192x128.Idx) :
    ∃ t : Fin cfg3.N, (cfg3.win 3).flush t = true ∧ i ∈ ((cfg3.win 3).blk t).view.set := by
  have hi0 : (i 0).val < 8192 := (i 0).isLt
  have hi1 : (i 1).val < 128 := (i 1).isLt
  have hN : cfg3.N = 16 := N_3
  have ht : 4 * ((i 0).val / 2048) + 3 < cfg3.N := by rw [hN]; omega
  refine ⟨⟨4 * ((i 0).val / 2048) + 3, ht⟩, (flush3_3 _).mpr (by dsimp only; omega), ?_⟩
  obtain ⟨-, -, -, -, -, -, e0, e1⟩ := idx_facts ⟨4 * ((i 0).val / 2048) + 3, ht⟩
  dsimp only at e0 e1
  show i ∈ ((View.whole main_v6).slice (win3_3.rect ⟨4 * ((i 0).val / 2048) + 3, ht⟩)).set
  rw [View.set_slice_whole, Rect.mem_set_unit]
  intro a
  match a with
  | ⟨0, _⟩ =>
    show win3_3.index ⟨4 * ((i 0).val / 2048) + 3, ht⟩ (0 : Fin 2) * 2048 ≤ (i 0).val
      ∧ (i 0).val < win3_3.index ⟨4 * ((i 0).val / 2048) + 3, ht⟩ (0 : Fin 2) * 2048 + 2048
    rw [e0]; omega
  | ⟨1, _⟩ =>
    show win3_3.index ⟨4 * ((i 0).val / 2048) + 3, ht⟩ (1 : Fin 2) * 128 ≤ (i 1).val
      ∧ (i 1).val < win3_3.index ⟨4 * ((i 0).val / 2048) + 3, ht⟩ (1 : Fin 2) * 128 + 128
    rw [e1]; omega

/-- The result array after the region: one graph-convolution layer of the three arrays the region reads. -/
theorem final (c : Dev nD) :
    (dat3 (F := Ideal) V c).arrAt 3 cfg3.N = Cert.Gcn.aggRow (V c main_arg1) (V c main_v4) (V c main_v5) :=
  (dat3 (F := Ideal) V c).arrAt_eq_of_cover 3 _ (flushed_eq V c) covered

end Array

end Cert.KernelIdeal.Region3

end
-- ==== Proof.Region4.lean ====
/-
  The last kernel region computes the sigmoid head of the network, block by block.

  The region runs over a grid of four points. Point t stages rows 2048·t … 2048·t + 2047 of the 8192×128 node array,
  the whole 128×1 weight column and the 1×1 bias, and writes back the same 2048 rows of the 8192×1 result. The body
  stores one block: entry (p, q) is the sigmoid of the sum over k of node-block(p, k) · weight(k, q), plus the bias
  entry. The narrowing of the operands to sixteen bits is the identity on the extended reals and the product into the
  zero accumulator is the plain sum. Hence what point t writes back is block t of
      (r, q) ↦ logistic (Σ_k x(r, k) · w(k, q) + b(0, 0)),
  and since row r lies in the block of point r / 2048, the four blocks tile the result and the array ends holding that
  function everywhere.
-/
import proofs.«101808_j25486335935216_1_alg».proof.Defs
import proofs.«101808_j25486335935216_1_alg».proof.Proof.Gen.KernelIdeal.Frame
import proofs.«101808_j25486335935216_1_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx
open scoped BigOperators

namespace Cert.KernelIdeal.Region4

open Cert.KernelIdeal Cert.KernelIdeal.Gen

variable (V : (c : Dev nD) → (b : Ref sig .tc) → Buf (Elt Ideal) ((c : Thread nD τ).loc b))

/-! ## The product's operand indices

  The block product contracts the left operand's second axis against the right operand's first: entry (p, q) of the
  result reads the left block at (p, k) and the right at (k, q). -/

theorem lhs_0 (i : S2048x1.Idx) (q : dot_S2048x128_S128x1_S2048x1_1_0_0_1_n_n.contr.Idx) :
    (dot_S2048x128_S128x1_S2048x1_1_0_0_1_n_n.lhsIdx i q 0).val = (i 0).val := by
  unfold DotDims.lhsIdx
  rw [dif_neg (show ¬(0 : Fin S2048x128.rank) ∈ dot_S2048x128_S128x1_S2048x1_1_0_0_1_n_n.lhsBatch by decide), dif_pos (show (0 : Fin S2048x128.rank) ∈ dot_S2048x128_S128x1_S2048x1_1_0_0_1_n_n.lhsNonContracting by decide)]
  rfl
theorem lhs_1 (i : S2048x1.Idx) (q : dot_S2048x128_S128x1_S2048x1_1_0_0_1_n_n.contr.Idx) :
    (dot_S2048x128_S128x1_S2048x1_1_0_0_1_n_n.lhsIdx i q 1).val = (q ⟨0, by decide⟩).val :=
  dot_S2048x128_S128x1_S2048x1_1_0_0_1_n_n.lhsIdx_val_of_single rfl i q
theorem rhs_0 (i : S2048x1.Idx) (q : dot_S2048x128_S128x1_S2048x1_1_0_0_1_n_n.contr.Idx) :
    (dot_S2048x128_S128x1_S2048x1_1_0_0_1_n_n.rhsIdx i q 0).val = (q ⟨0, by decide⟩).val :=
  dot_S2048x128_S128x1_S2048x1_1_0_0_1_n_n.rhsIdx_val_of_single rfl i q
theorem rhs_1 (i : S2048x1.Idx) (q : dot_S2048x128_S128x1_S2048x1_1_0_0_1_n_n.contr.Idx) :
    (dot_S2048x128_S128x1_S2048x1_1_0_0_1_n_n.rhsIdx i q 1).val = (i 1).val := by
  unfold DotDims.rhsIdx
  rw [dif_neg (show ¬(1 : Fin S128x1.rank) ∈ dot_S2048x128_S128x1_S2048x1_1_0_0_1_n_n.rhsBatch by decide), dif_pos (show (1 : Fin S128x1.rank) ∈ dot_S2048x128_S128x1_S2048x1_1_0_0_1_n_n.rhsNonContracting by decide)]
  rfl

/-- The block product into the zero accumulator, at an entry: the plain sum over the contracted axis. -/
theorem matmul_at (a : FVec Ideal S2048x128 .bf16) (b : FVec Ideal S128x1 .bf16) (p : Fin 2048) (q : Fin 1) :
    matmul dot_S2048x128_S128x1_S2048x1_1_0_0_1_n_n none a b (constant (F := Ideal) S2048x1 .f32 0x00000000#32) (ix2 p q)
      = ∑ k : Fin 128, a (ix2 p k) * b (ix2 k q) := by
  refine (Ideal.matmul_constant_zero_apply dot_S2048x128_S128x1_S2048x1_1_0_0_1_n_n none a b (ix2 p q)).trans ?_
  rw [← Equiv.sum_comp (ValueIdx.contrEquiv1 dot_S2048x128_S128x1_S2048x1_1_0_0_1_n_n 128 rfl rfl).symm]
  refine Finset.sum_congr rfl fun k _ => ?_
  have hk := ValueIdx.contrEquiv1_symm_val dot_S2048x128_S128x1_S2048x1_1_0_0_1_n_n 128 rfl rfl k
  have el : dot_S2048x128_S128x1_S2048x1_1_0_0_1_n_n.lhsIdx (ix2 p q) ((ValueIdx.contrEquiv1 dot_S2048x128_S128x1_S2048x1_1_0_0_1_n_n 128 rfl rfl).symm k) = ix2 p k := funext fun a => Fin.ext (by
    match a with
    | ⟨0, _⟩ => exact lhs_0 _ _
    | ⟨1, _⟩ => exact (lhs_1 _ _).trans hk)
  have er : dot_S2048x128_S128x1_S2048x1_1_0_0_1_n_n.rhsIdx (ix2 p q) ((ValueIdx.contrEquiv1 dot_S2048x128_S128x1_S2048x1_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's payload at an entry: the sigmoid of row p of the node block against the one column of the weights, plus
    the one bias entry. The narrowing to sixteen bits is the identity on the extended reals, the casts to the same
    shape are the identity, and the 1×1 bias broadcast down the column reads its one entry. -/
theorem pay_at (x0 : Vec Ideal S2048x128 .f32) (x1 : Vec Ideal S128x1 .f32) (x2 : Vec Ideal S1x1 .f32) (p : Fin 2048) (q : Fin 1) :
    k4_pay1 (F := Ideal) x0 x1 x2 (ix2 p q) = Ideal.logistic ((∑ k : Fin 128, x0 (ix2 p k) * x1 (ix2 k q)) + x2 (ix2 0 0)) := by
  unfold k4_pay1
  show Ideal.logistic (matmul dot_S2048x128_S128x1_S2048x1_1_0_0_1_n_n none
      (truncf .bf16 (shapeCast S2048x128 x0 shapeCasts_S2048x128_S2048x128) bitsLt_bf16_f32) (truncf .bf16 x1 bitsLt_bf16_f32)
      (constant (F := Ideal) S2048x1 .f32 0x00000000#32) (ix2 p q)
    + broadcastTo S2048x1 (shapeCast S1x1 x2 shapeCasts_S1x1_S1x1) broadcasts_S1x1_S2048x1 (ix2 p q)) = _
  rw [matmul_at, shapeCast_self, shapeCast_self]
  rw [broadcastTo_apply x2 broadcasts_S1x1_S2048x1 (ix2 p q) (ix2 0 0) (fun a => by
    match a with
    | ⟨0, _⟩ => rfl
    | ⟨1, _⟩ => rfl)]
  rfl

/-! ## What the body leaves is the payload of the three blocks -/

theorem hz : (![0, 0] : Fin 2 → Nat) = fun _ => 0 := funext fun a => by fin_cases a <;> rfl

/-- The body's one store covers the whole output buffer and its loads read the whole input buffers. -/
theorem out_eq (x0 : Vec Ideal S2048x128 .f32) (x1 : Vec Ideal S128x1 .f32) (x2 : Vec Ideal S1x1 .f32) :
    out4_3 (F := Ideal) x0 x1 x2 = k4_pay1 x0 x1 x2 := by
  unfold out4_3
  rw [View.canon_unit_zero hz]
  simp only [View.ld_unit_zero (S := S2048x128) hz, View.ld_unit_zero (S := S128x1) hz, View.ld_unit_zero (S := S1x1) hz]

/-! ## Where each window's block sits

  Point t of the grid takes rows 2048·t … 2048·t + 2047 of the node array and writes the same rows of the result;
  the weights and the bias are read whole at every point. -/

theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The node block at point t, entry (p, k), is the node array at row 2048·t + p. -/
theorem blk0_at (c : Dev nD) (t : Fin cfg4.N) (p : Fin 2048) (k : Fin 128) (r : Fin 8192) (hr : r.val = 2048 * t.val + p.val) :
    iblk4 (F := Ideal) V c 0 t (ix2 p k) = V c main_v6 (ix2 r k) := by
  obtain ⟨e0, e1, -⟩ := idx_facts t
  unfold iblk4
  rw [View.read_apply]
  show V c main_v6 _ = V c main_v6 _
  congr 1
  funext a
  apply Fin.ext
  match a with
  | ⟨0, _⟩ => show win4_0.index t 0 * 2048 + 1 * p.val = r.val; rw [e0, hr]; omega
  | ⟨1, _⟩ => show win4_0.index t 1 * 128 + 1 * k.val = k.val; rw [e1]; omega

/-- The weight block is the weight array. -/
theorem blk1_at (c : Dev nD) (t : Fin cfg4.N) (k : Fin 128) (q : Fin 1) :
    iblk4 (F := Ideal) V c 1 t (ix2 k q) = V c main_arg6 (ix2 k q) := by
  obtain ⟨-, -, e0, e1, -⟩ := idx_facts t
  unfold iblk4
  rw [View.read_apply]
  show V c main_arg6 _ = V c main_arg6 _
  congr 1
  funext a
  apply Fin.ext
  match a with
  | ⟨0, _⟩ => show win4_1.index t 0 * 128 + 1 * k.val = k.val; rw [e0]; omega
  | ⟨1, _⟩ => show win4_1.index t 1 * 1 + 1 * q.val = q.val; rw [e1]; omega

/-- The bias block is the bias array. -/
theorem blk2_at (c : Dev nD) (t : Fin cfg4.N) (a0 b0 : Fin 1) :
    iblk4 (F := Ideal) V c 2 t (ix2 a0 b0) = V c main_v7 (ix2 a0 b0) := by
  obtain ⟨-, -, -, -, e0, e1, -⟩ := idx_facts t
  unfold iblk4
  rw [View.read_apply]
  show V c main_v7 _ = V c main_v7 _
  congr 1
  funext a
  apply Fin.ext
  match a with
  | ⟨0, _⟩ => show win4_2.index t 0 * 1 + 1 * a0.val = a0.val; rw [e0]; omega
  | ⟨1, _⟩ => show win4_2.index t 1 * 1 + 1 * b0.val = b0.val; rw [e1]; omega

/-! ## What each point writes back, and the whole array -/

/-- WHAT POINT t WRITES BACK is block t of the sigmoid head of the arrays as the region finds them: entry (p, q) of the
    block is the payload of the three blocks there, the node block's row p being the node array's row 2048·t + p. -/
theorem flushed_eq (c : Dev nD) (t : Fin cfg4.N) :
    (dat4 (F := Ideal) V c).flushed 3 t
      = ((cfg4.win 3).blk t).view.read (Elt Ideal) (Cert.Gcn.headRow (V c main_v6) (V c main_arg6) (V c main_v7)) := by
  show (cfg4.win 3).cut (grid4.coords t) ((dat4 (F := Ideal) V c).after 3 t) = _
  rw [after4_3, out_eq]
  obtain ⟨-, -, -, -, -, -, e0, e1⟩ := idx_facts t
  have ht : t.val < 4 := lt_of_lt_of_eq t.isLt N_4
  funext y
  obtain ⟨p, q, rfl⟩ : ∃ (p : Fin 2048) (q : Fin 1), y = ix2 p q := ⟨y 0, y 1, eq_ix2 y⟩
  have hp : p.val < 2048 := p.isLt
  show k4_pay1 (F := Ideal) (iblk4 V c 0 t) (iblk4 V c 1 t) (iblk4 V c 2 t) (ix2 p q) = _
  rw [pay_at, View.read_apply]
  show _ = Cert.Gcn.headRow (V c main_v6) (V c main_arg6) (V c main_v7) (((cfg4.win 3).blk t).view.emb (ix2 p q))
  have hemb : ((cfg4.win 3).blk t).view.emb (ix2 p q) = ix2 (⟨2048 * t.val + p.val, by omega⟩ : Fin 8192) q := by
    funext a
    apply Fin.ext
    match a with
    | ⟨0, _⟩ => show win4_3.index t 0 * 2048 + 1 * p.val = 2048 * t.val + p.val; rw [e0]; omega
    | ⟨1, _⟩ => show win4_3.index t 1 * 1 + 1 * q.val = q.val; rw [e1]; omega
  rw [hemb, Cert.Gcn.headRow_apply, blk2_at]
  congr 2
  exact Finset.sum_congr rfl fun k _ => by rw [blk0_at V c t p k ⟨2048 * t.val + p.val, by omega⟩ rfl, blk1_at]

/-- An index of the result array is in point t's block iff its row lies in the block's 2048 rows. -/
theorem mem_blk (t : Fin cfg4.N) (i : S8192x1.Idx) :
    i ∈ ((cfg4.win 3).blk t).view.set ↔ ∀ a : Fin 2, win4_3.index t a * S2048x1.size a ≤ (i a).val ∧ (i a).val < win4_3.index t a * S2048x1.size a + S2048x1.size a := by
  show i ∈ ((View.whole main_v8).slice (win4_3.rect t)).set ↔ _
  rw [View.set_slice_whole, Rect.mem_set_unit]
  exact Iff.rfl

/-- Row r of the result is written by point r / 2048: the four blocks tile the 8192 rows. -/
theorem cover (i : S8192x1.Idx) : ∃ t : Fin cfg4.N, (cfg4.win 3).flush t = true ∧ i ∈ ((cfg4.win 3).blk t).view.set := by
  have hi0 : (i 0).val < 8192 := (i 0).isLt
  have hi1 : (i 1).val < 1 := (i 1).isLt
  have hN : cfg4.N = 4 := N_4
  let t : Fin cfg4.N := ⟨(i 0).val / 2048, by rw [hN]; omega⟩
  obtain ⟨-, -, -, -, -, -, e0, e1⟩ := idx_facts t
  have e0' : win4_3.index t (0 : Fin 2) = (i 0).val / 2048 := e0
  refine ⟨t, flush4_3 t, ?_⟩
  rw [mem_blk]
  intro a
  match a with
  | ⟨0, _⟩ => show win4_3.index t (0 : Fin 2) * 2048 ≤ (i 0).val ∧ (i 0).val < win4_3.index t (0 : Fin 2) * 2048 + 2048; omega
  | ⟨1, _⟩ => show win4_3.index t (1 : Fin 2) * 1 ≤ (i 1).val ∧ (i 1).val < win4_3.index t (1 : Fin 2) * 1 + 1; omega

/-- THE ARRAY after the region: the sigmoid head of the node array, the weights and the bias. -/
theorem final (c : Dev nD) :
    (dat4 (F := Ideal) V c).arrAt 3 cfg4.N = Cert.Gcn.headRow (V c main_v6) (V c main_arg6) (V c main_v7) :=
  (dat4 (F := Ideal) V c).arrAt_eq_of_cover 3 _ (fun t _ => flushed_eq V c t) cover

end Cert.KernelIdeal.Region4

end
-- ==== Proof.Chain.lean ====
/-
  The result array of the kernel's run, read back through @main's segments.

  @main is nine segments: four short host stretches (the zero row; b₁, b₂ and b_f laid out as rows) among five kernel
  regions. The buffer contents at each segment boundary are a fold from the launch memory: a host stretch changes only
  the buffers its operations write, a region only its output array, and leaves its input arrays as it found them. So
  every array a region reads is either a launch array, untouched so far, or an earlier region's output (the steps, one
  per buffer and boundary, are the lemmas of the Boundaries module), and reading the last boundary back region by region gives the network of the launch arrays:
      Y₁ = X · W₁,  H₁ = max (A · Y₁ + b₁, 0),  Y₂ = H₁ · W₂,  H₂ = max (A · Y₂ + b₂, 0),  out = sigmoid (H₂ · W_f + b_f).
  The only arithmetic here is that adding the zero row changes nothing; each region's own value is its module's.
-/
import proofs.«101808_j25486335935216_1_alg».proof.Defs
import proofs.«101808_j25486335935216_1_alg».proof.Proof.Gen.KernelIdeal.Frame
import proofs.«101808_j25486335935216_1_alg».proof.Proof.Spec
import proofs.«101808_j25486335935216_1_alg».proof.Proof.Boundaries
import proofs.«101808_j25486335935216_1_alg».proof.Proof.Region0
import proofs.«101808_j25486335935216_1_alg».proof.Proof.Region1
import proofs.«101808_j25486335935216_1_alg».proof.Proof.Region2
import proofs.«101808_j25486335935216_1_alg».proof.Proof.Region3
import proofs.«101808_j25486335935216_1_alg».proof.Proof.Region4
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Chain

open Cert.KernelIdeal Cert.KernelIdeal.Gen

variable (m : (ℓ : Loc nD τ sig) → Buf (Elt Ideal) ℓ) (ρ : Dev nD → PrngReg)

/-! ## The five layers, each read at its region's entry contents -/

/-- Every entry of the zero row is zero. -/
theorem zero_row (q : Fin 128) : ((broadcastInDim S1x128 ![] bcast_S_S1x128 (constant (F := Ideal) S_ .f32 0x00000000#32)) : Cert.Gcn.Mat 1 128) (ix2 0 q) = 0 :=
  (broadcastInDim_apply _ bcast_S_S1x128 _ (ix2 0 q) ix0 (fun a => a.elim0)).trans Ideal.ofBits_zero_f32

/-- A at region 1's entry is the launch array: nothing before it writes A. -/
theorem A_at3 (c : Dev nD) : V3 m ρ c main_arg1 = m ((c : Thread nD τ).loc main_arg1) :=
  (W3_arg1 m ρ c).trans ((W2_arg1 m ρ c).trans (W1_arg1 m ρ c))

/-- Region 0 leaves Y₁ = X · W₁: the zero row it adds changes nothing. -/
theorem Y1_eq (c : Dev nD) : (dat0 (V1 m ρ) c).arrAt 3 cfg0.N = (Cert.Gcn.dense (m ((c : Thread nD τ).loc main_arg0)) (m ((c : Thread nD τ).loc main_arg2))) := by
  rw [Cert.KernelIdeal.Region0.final (V1 m ρ) c]
  have e0 : V1 m ρ c main_arg0 = m ((c : Thread nD τ).loc main_arg0) := W1_arg0 m ρ c
  have e2 : V1 m ρ c main_arg2 = m ((c : Thread nD τ).loc main_arg2) := W1_arg2 m ρ c
  have ez : V1 m ρ c main_v0 = (broadcastInDim S1x128 ![] bcast_S_S1x128 (constant (F := Ideal) S_ .f32 0x00000000#32)) := W1_v0 m ρ c
  rw [e0, e2, ez]
  exact Cert.Gcn.denseRow_zero _ _ _ zero_row

/-- Region 1 leaves H₁ = max (A · Y₁ + b₁, 0): it finds Y₁ where region 0 left it, and its bias row is b₁ laid out as 1×128. -/
theorem H1_eq (c : Dev nD) : (dat1 (V3 m ρ) c).arrAt 3 cfg1.N = (Cert.Gcn.agg (m ((c : Thread nD τ).loc main_arg1)) (Cert.Gcn.dense (m ((c : Thread nD τ).loc main_arg0)) (m ((c : Thread nD τ).loc main_arg2))) (m ((c : Thread nD τ).loc main_arg3))) := by
  rw [Cert.KernelIdeal.Region1.final (V3 m ρ) c]
  have e1 : V3 m ρ c main_arg1 = m ((c : Thread nD τ).loc main_arg1) := A_at3 m ρ c
  have ey : V3 m ρ c main_v1 = (Cert.Gcn.dense (m ((c : Thread nD τ).loc main_arg0)) (m ((c : Thread nD τ).loc main_arg2))) := (W3_v1 m ρ c).trans ((W2_v1 m ρ c).trans (Y1_eq m ρ c))
  have eb : V3 m ρ c main_v2 = shapeCast S1x128 (m ((c : Thread nD τ).loc main_arg3)) shapeCasts_S128_S1x128 :=
    (W3_v2 m ρ c).trans (congrArg (fun x : S128.Idx → EReal => shapeCast S1x128 x shapeCasts_S128_S1x128)
      ((W2_arg3 m ρ c).trans (W1_arg3 m ρ c)))
  rw [e1, ey, eb]
  exact Cert.Gcn.aggRow_eq_agg _ _ _ _ (fun q => shapeCast_a_1a_apply _ _ 0 q)

/-- Region 2 leaves Y₂ = H₁ · W₂. -/
theorem Y2_eq (c : Dev nD) : (dat2 (V4 m ρ) c).arrAt 3 cfg2.N = (Cert.Gcn.dense (Cert.Gcn.agg (m ((c : Thread nD τ).loc main_arg1)) (Cert.Gcn.dense (m ((c : Thread nD τ).loc main_arg0)) (m ((c : Thread nD τ).loc main_arg2))) (m ((c : Thread nD τ).loc main_arg3))) (m ((c : Thread nD τ).loc main_arg4))) := by
  rw [Cert.KernelIdeal.Region2.final (V4 m ρ) c]
  have e0 : V4 m ρ c main_v3 = (Cert.Gcn.agg (m ((c : Thread nD τ).loc main_arg1)) (Cert.Gcn.dense (m ((c : Thread nD τ).loc main_arg0)) (m ((c : Thread nD τ).loc main_arg2))) (m ((c : Thread nD τ).loc main_arg3))) := (W4_v3 m ρ c).trans (H1_eq m ρ c)
  have e2 : V4 m ρ c main_arg4 = m ((c : Thread nD τ).loc main_arg4) :=
    (W4_arg4 m ρ c).trans ((W3_arg4 m ρ c).trans ((W2_arg4 m ρ c).trans (W1_arg4 m ρ c)))
  have ez : V4 m ρ c main_v0 = (broadcastInDim S1x128 ![] bcast_S_S1x128 (constant (F := Ideal) S_ .f32 0x00000000#32)) :=
    (W4_v0 m ρ c).trans ((W3_v0 m ρ c).trans ((W2_v0 m ρ c).trans (W1_v0 m ρ c)))
  rw [e0, e2, ez]
  exact Cert.Gcn.denseRow_zero _ _ _ zero_row

/-- Region 3 leaves H₂ = max (A · Y₂ + b₂, 0). -/
theorem H2_eq (c : Dev nD) : (dat3 (V6 m ρ) c).arrAt 3 cfg3.N = (Cert.Gcn.agg (m ((c : Thread nD τ).loc main_arg1)) (Cert.Gcn.dense (Cert.Gcn.agg (m ((c : Thread nD τ).loc main_arg1)) (Cert.Gcn.dense (m ((c : Thread nD τ).loc main_arg0)) (m ((c : Thread nD τ).loc main_arg2))) (m ((c : Thread nD τ).loc main_arg3))) (m ((c : Thread nD τ).loc main_arg4))) (m ((c : Thread nD τ).loc main_arg5))) := by
  rw [Cert.KernelIdeal.Region3.final (V6 m ρ) c]
  have e1 : V6 m ρ c main_arg1 = m ((c : Thread nD τ).loc main_arg1) :=
    (W6_arg1 m ρ c).trans ((W5_arg1 m ρ c).trans ((W4_arg1 m ρ c).trans (A_at3 m ρ c)))
  have ey : V6 m ρ c main_v4 = (Cert.Gcn.dense (Cert.Gcn.agg (m ((c : Thread nD τ).loc main_arg1)) (Cert.Gcn.dense (m ((c : Thread nD τ).loc main_arg0)) (m ((c : Thread nD τ).loc main_arg2))) (m ((c : Thread nD τ).loc main_arg3))) (m ((c : Thread nD τ).loc main_arg4))) := (W6_v4 m ρ c).trans ((W5_v4 m ρ c).trans (Y2_eq m ρ c))
  have eb : V6 m ρ c main_v5 = shapeCast S1x128 (m ((c : Thread nD τ).loc main_arg5)) shapeCasts_S128_S1x128 :=
    (W6_v5 m ρ c).trans (congrArg (fun x : S128.Idx → EReal => shapeCast S1x128 x shapeCasts_S128_S1x128)
      ((W5_arg5 m ρ c).trans ((W4_arg5 m ρ c).trans ((W3_arg5 m ρ c).trans ((W2_arg5 m ρ c).trans (W1_arg5 m ρ c))))))
  rw [e1, ey, eb]
  exact Cert.Gcn.aggRow_eq_agg _ _ _ _ (fun q => shapeCast_a_1a_apply _ _ 0 q)

/-- Region 4 leaves the sigmoid of H₂ · W_f + b_f. -/
theorem out_eq (c : Dev nD) : (dat4 (V8 m ρ) c).arrAt 3 cfg4.N = (Cert.Gcn.head (Cert.Gcn.agg (m ((c : Thread nD τ).loc main_arg1)) (Cert.Gcn.dense (Cert.Gcn.agg (m ((c : Thread nD τ).loc main_arg1)) (Cert.Gcn.dense (m ((c : Thread nD τ).loc main_arg0)) (m ((c : Thread nD τ).loc main_arg2))) (m ((c : Thread nD τ).loc main_arg3))) (m ((c : Thread nD τ).loc main_arg4))) (m ((c : Thread nD τ).loc main_arg5))) (m ((c : Thread nD τ).loc main_arg6)) (m ((c : Thread nD τ).loc main_arg7))) := by
  rw [Cert.KernelIdeal.Region4.final (V8 m ρ) c]
  have e0 : V8 m ρ c main_v6 = (Cert.Gcn.agg (m ((c : Thread nD τ).loc main_arg1)) (Cert.Gcn.dense (Cert.Gcn.agg (m ((c : Thread nD τ).loc main_arg1)) (Cert.Gcn.dense (m ((c : Thread nD τ).loc main_arg0)) (m ((c : Thread nD τ).loc main_arg2))) (m ((c : Thread nD τ).loc main_arg3))) (m ((c : Thread nD τ).loc main_arg4))) (m ((c : Thread nD τ).loc main_arg5))) := (W8_v6 m ρ c).trans ((W7_v6 m ρ c).trans (H2_eq m ρ c))
  have e6 : V8 m ρ c main_arg6 = m ((c : Thread nD τ).loc main_arg6) :=
    (W8_arg6 m ρ c).trans ((W7_arg6 m ρ c).trans ((W6_arg6 m ρ c).trans ((W5_arg6 m ρ c).trans ((W4_arg6 m ρ c).trans
      ((W3_arg6 m ρ c).trans ((W2_arg6 m ρ c).trans (W1_arg6 m ρ c)))))))
  have eb : V8 m ρ c main_v7 = shapeCast S1x1 (m ((c : Thread nD τ).loc main_arg7)) shapeCasts_S1_S1x1 :=
    (W8_v7 m ρ c).trans (congrArg (fun x : S1.Idx → EReal => shapeCast S1x1 x shapeCasts_S1_S1x1)
      ((W7_arg7 m ρ c).trans ((W6_arg7 m ρ c).trans ((W5_arg7 m ρ c).trans ((W4_arg7 m ρ c).trans
        ((W3_arg7 m ρ c).trans ((W2_arg7 m ρ c).trans (W1_arg7 m ρ c))))))))
  rw [e0, e6, eb]
  exact Cert.Gcn.headRow_eq_head _ _ _ _ (shapeCast_a_1a_apply _ _ 0 0)

/-- The result array after the run is the network of the launch arrays. -/
theorem result_eq (c : Dev nD) : W9 m ρ c (Proc.devRef .tc main_v8)
    = Cert.Gcn.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W9_v8 m ρ c).trans (out_eq m ρ c)

end Cert.KernelIdeal.Chain

end
-- ==== Proof.RefValue.lean ====
/-
  The reference program is the specification's network.

  The reference computes, one array operation at a time, a two-layer graph convolution with a sigmoid head:
  a matrix product X·W₁, the aggregation A·(X·W₁) with the bias b₁ added to every row and the positive part taken,
  the same two steps again with W₂ and b₂, then a product with the one-column matrix W_f, the bias b_f added, and
  1 / (1 + e^{-z}) of the result. Every operation's entry at (p, q) depends on its operands in a fixed way:
  a product's entry is the sum over the contracted axis of row p of the left operand against column q of the right;
  a broadcast bias reads the vector at q; the pointwise operations read their operands at (p, q). Reading the last
  array at an index and following these dependencies inwards, stage by stage, gives exactly the specification's
  formula at that index. No algebraic law is used beyond: the zero word denotes 0, the word of 1.0 denotes 1, and
  the sigmoid is by definition that quotient.
-/
import proofs.«101808_j25486335935216_1_alg».proof.Defs
import proofs.«101808_j25486335935216_1_alg».proof.Proof.Gen.ReferenceIdeal.Run
import proofs.«101808_j25486335935216_1_alg».proof.Proof.Gen.ReferenceIdeal.Read
import proofs.«101808_j25486335935216_1_alg».proof.Proof.Spec
import Idealize.ShloMosaic.Lib.ValueIdx
import Idealize.ShloMosaic.PureOps.Ideal.Laws

noncomputable section

open Idealize.ShloMosaic Idealize.ShloMosaic.TcCoe Idealize.SL.Sem
open Idealize.ShloMosaic.ValueIdx
open scoped BigOperators

namespace Cert.ReferenceIdeal.RefValue

open Cert.ReferenceIdeal Cert.ReferenceIdeal.Gen Cert.ReferenceIdeal.Read

/-! ## The two constant words -/

/-- The word of 1.0 in single precision denotes the number one. -/
theorem one_word : Ideal.ofBits .f32 0x3F800000#32 = 1 := by
  simp [Ideal.ofBits, Ideal.ieee, -EReal.coe_mul]; norm_num

/-! ## Which entries a product reads

  For each of the five products the entry (p, q) of the result reads the left operand at (p, k) and the right operand
  at (k, q), k running over the contracted axis. -/

theorem lidx_v0 (p : Fin 8192) (q : Fin 128) (k : Fin 256) : lidx_main_v0 (ix2 p q) k = ix2 p k :=
  funext fun a => Fin.ext (by match a with | ⟨0, _⟩ => rfl | ⟨1, _⟩ => rfl)
theorem ridx_v0 (p : Fin 8192) (q : Fin 128) (k : Fin 256) : ridx_main_v0 (ix2 p q) k = ix2 k q :=
  funext fun a => Fin.ext (by match a with | ⟨0, _⟩ => rfl | ⟨1, _⟩ => rfl)
theorem lidx_v1 (p : Fin 8192) (q : Fin 128) (k : Fin 8192) : lidx_main_v1 (ix2 p q) k = ix2 p k :=
  funext fun a => Fin.ext (by match a with | ⟨0, _⟩ => rfl | ⟨1, _⟩ => rfl)
theorem ridx_v1 (p : Fin 8192) (q : Fin 128) (k : Fin 8192) : ridx_main_v1 (ix2 p q) k = ix2 k q :=
  funext fun a => Fin.ext (by match a with | ⟨0, _⟩ => rfl | ⟨1, _⟩ => rfl)
theorem lidx_v6 (p : Fin 8192) (q : Fin 128) (k : Fin 128) : lidx_main_v6 (ix2 p q) k = ix2 p k :=
  funext fun a => Fin.ext (by match a with | ⟨0, _⟩ => rfl | ⟨1, _⟩ => rfl)
theorem ridx_v6 (p : Fin 8192) (q : Fin 128) (k : Fin 128) : ridx_main_v6 (ix2 p q) k = ix2 k q :=
  funext fun a => Fin.ext (by match a with | ⟨0, _⟩ => rfl | ⟨1, _⟩ => rfl)
theorem lidx_v7 (p : Fin 8192) (q : Fin 128) (k : Fin 8192) : lidx_main_v7 (ix2 p q) k = ix2 p k :=
  funext fun a => Fin.ext (by match a with | ⟨0, _⟩ => rfl | ⟨1, _⟩ => rfl)
theorem ridx_v7 (p : Fin 8192) (q : Fin 128) (k : Fin 8192) : ridx_main_v7 (ix2 p q) k = ix2 k q :=
  funext fun a => Fin.ext (by match a with | ⟨0, _⟩ => rfl | ⟨1, _⟩ => rfl)
theorem lidx_v12 (p : Fin 8192) (q : Fin 1) (k : Fin 128) : lidx_main_v12 (ix2 p q) k = ix2 p k :=
  funext fun a => Fin.ext (by match a with | ⟨0, _⟩ => rfl | ⟨1, _⟩ => rfl)
theorem ridx_v12 (p : Fin 8192) (q : Fin 1) (k : Fin 128) : ridx_main_v12 (ix2 p q) k = ix2 k q :=
  funext fun a => Fin.ext (by match a with | ⟨0, _⟩ => rfl | ⟨1, _⟩ => rfl)

/-! ## Which entry a broadcast bias reads -/

theorem bias_v3 (p : Fin 8192) (q : Fin 128) : idx_main_v2 (idx_main_v3 (ix2 p q)) = ix1 q :=
  funext fun a => Fin.ext (by match a with | ⟨0, _⟩ => rfl)
theorem bias_v9 (p : Fin 8192) (q : Fin 128) : idx_main_v8 (idx_main_v9 (ix2 p q)) = ix1 q :=
  funext fun a => Fin.ext (by match a with | ⟨0, _⟩ => rfl)
theorem bias_v14 (p : Fin 8192) (q : Fin 1) : idx_main_v13 (idx_main_v14 (ix2 p q)) = ix1 0 :=
  funext fun a => Fin.ext (by match a with | ⟨0, _⟩ => rfl)

/-! ## The stages -/

/-- The first product is X·W₁. -/
theorem stage_v0 (x0 : (⟨S8192x256, .f32⟩ : BufTy).Contents (Elt Ideal)) (x2 : (⟨S256x128, .f32⟩ : BufTy).Contents (Elt Ideal)) :
    val_main_v0 (F := Ideal) x0 x2 = Cert.Gcn.dense x0 x2 := by
  funext i
  obtain ⟨p, q, rfl⟩ : ∃ (p : Fin 8192) (q : Fin 128), i = ix2 p q := ⟨i 0, i 1, eq_ix2 i⟩
  rw [val_main_v0_apply, Cert.Gcn.dense_apply]
  exact Finset.sum_congr rfl fun k _ => by rw [lidx_v0, ridx_v0]

/-- The positive part of a sum plus a bias, as the program's operations spell it: the zero word denotes 0. -/
theorem relu_bias (s b : EReal) :
    FloatOps.maximumf (F := Ideal) (φ := .f32) (FloatOps.addf (F := Ideal) (φ := .f32) s b) (FloatOps.ofBits (F := Ideal) .f32 0x00000000#32)
      = max (s + b) 0 := by
  rw [Ideal.maximumf_def, Ideal.addf_def, Ideal.ofBits_def, Ideal.ofBits_zero_f32]

/-- The first layer: the positive part of A·(X·W₁) + b₁. -/
theorem stage_v5 (x0 : (⟨S8192x256, .f32⟩ : BufTy).Contents (Elt Ideal)) (x1 : (⟨S8192x8192, .f32⟩ : BufTy).Contents (Elt Ideal))
    (x2 : (⟨S256x128, .f32⟩ : BufTy).Contents (Elt Ideal)) (x3 : (⟨S128, .f32⟩ : BufTy).Contents (Elt Ideal)) :
    val_main_v5 (F := Ideal) x0 x1 x2 x3 = Cert.Gcn.agg x1 (Cert.Gcn.dense x0 x2) x3 := by
  funext i
  obtain ⟨p, q, rfl⟩ : ∃ (p : Fin 8192) (q : Fin 128), i = ix2 p q := ⟨i 0, i 1, eq_ix2 i⟩
  rw [val_main_v5_apply, val_main_v4_apply, val_main_v1_apply, val_main_v3_apply, val_main_v2_apply,
    val_main_call0_v0_apply, val_main_call0_cst_apply, stage_v0, bias_v3, relu_bias, Cert.Gcn.agg_apply]
  congr 2
  exact Finset.sum_congr rfl fun k _ => by rw [lidx_v1, ridx_v1]

/-- The second product is H₁·W₂, with H₁ the first layer. -/
theorem stage_v6 (x0 : (⟨S8192x256, .f32⟩ : BufTy).Contents (Elt Ideal)) (x1 : (⟨S8192x8192, .f32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) :
    val_main_v6 (F := Ideal) x0 x1 x2 x3 x4 = Cert.Gcn.dense (Cert.Gcn.agg x1 (Cert.Gcn.dense x0 x2) x3) x4 := by
  funext i
  obtain ⟨p, q, rfl⟩ : ∃ (p : Fin 8192) (q : Fin 128), i = ix2 p q := ⟨i 0, i 1, eq_ix2 i⟩
  rw [val_main_v6_apply, stage_v5, Cert.Gcn.dense_apply]
  exact Finset.sum_congr rfl fun k _ => by rw [lidx_v6, ridx_v6]

/-- The second layer: the positive part of A·(H₁·W₂) + b₂. -/
theorem stage_v11 (x0 : (⟨S8192x256, .f32⟩ : BufTy).Contents (Elt Ideal)) (x1 : (⟨S8192x8192, .f32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v11 (F := Ideal) x0 x1 x2 x3 x4 x5
      = Cert.Gcn.agg x1 (Cert.Gcn.dense (Cert.Gcn.agg x1 (Cert.Gcn.dense x0 x2) x3) x4) x5 := by
  funext i
  obtain ⟨p, q, rfl⟩ : ∃ (p : Fin 8192) (q : Fin 128), i = ix2 p q := ⟨i 0, i 1, eq_ix2 i⟩
  rw [val_main_v11_apply, val_main_v10_apply, val_main_v7_apply, val_main_v9_apply, val_main_v8_apply,
    val_main_call1_v0_apply, val_main_call1_cst_apply, stage_v6, bias_v9, relu_bias, Cert.Gcn.agg_apply]
  congr 2
  exact Finset.sum_congr rfl fun k _ => by rw [lidx_v7, ridx_v7]

/-- The last product is H₂·W_f, with H₂ the second layer. -/
theorem stage_v12 (x0 : (⟨S8192x256, .f32⟩ : BufTy).Contents (Elt Ideal)) (x1 : (⟨S8192x8192, .f32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x1, .f32⟩ : BufTy).Contents (Elt Ideal)) :
    val_main_v12 (F := Ideal) x0 x1 x2 x3 x4 x5 x6
      = Cert.Gcn.dense (Cert.Gcn.agg x1 (Cert.Gcn.dense (Cert.Gcn.agg x1 (Cert.Gcn.dense x0 x2) x3) x4) x5) x6 := by
  funext i
  obtain ⟨p, q, rfl⟩ : ∃ (p : Fin 8192) (q : Fin 1), i = ix2 p q := ⟨i 0, i 1, eq_ix2 i⟩
  rw [val_main_v12_apply, stage_v11, Cert.Gcn.dense_apply]
  exact Finset.sum_congr rfl fun k _ => by rw [lidx_v12, ridx_v12]

/-- The head as the program's operations spell it: both ones are the word of 1.0, the negation, the exponential and
    the quotient are the extended reals' own, and that quotient is the sigmoid by definition. -/
theorem sigmoid_spelt (z : EReal) :
    FloatOps.hostDivf (F := Ideal) (φ := .f32) (FloatOps.ofBits (F := Ideal) .f32 0x3F800000#32)
        (FloatOps.addf (F := Ideal) (φ := .f32) (FloatOps.ofBits (F := Ideal) .f32 0x3F800000#32)
          (FloatOps.hostUnary (F := Ideal) (φ := .f32) .exp (FloatOps.hostNegf (F := Ideal) (φ := .f32) z)))
      = Ideal.logistic z := by
  rw [Ideal.hostDivf_def, Ideal.addf_def, Ideal.hostUnary_exp_def, Ideal.hostNegf_def, Ideal.negf_def, Ideal.ofBits_def,
    one_word, Cert.Gcn.logistic_eq]

/-- The reference's last array is the specification's network, entry by entry. -/
theorem ref_eq (x0 : (⟨S8192x256, .f32⟩ : BufTy).Contents (Elt Ideal)) (x1 : (⟨S8192x8192, .f32⟩ : BufTy).Contents (Elt Ideal))
    (x2 : (⟨S256x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x1, .f32⟩ : BufTy).Contents (Elt Ideal)) (x7 : (⟨S1, .f32⟩ : BufTy).Contents (Elt Ideal)) :
    val_main_v21 (F := Ideal) x0 x1 x2 x3 x4 x5 x6 x7 = Cert.Gcn.net x0 x1 x2 x3 x4 x5 x6 x7 := by
  funext i
  obtain ⟨p, q, rfl⟩ : ∃ (p : Fin 8192) (q : Fin 1), i = ix2 p q := ⟨i 0, i 1, eq_ix2 i⟩
  rw [val_main_v21_apply, val_main_v20_apply, val_main_cst_0_apply, val_main_v19_apply, val_main_v18_apply,
    val_main_cst_apply, val_main_v17_apply, val_main_v16_apply, sigmoid_spelt, val_main_v15_apply, val_main_v14_apply,
    val_main_v13_apply, bias_v14, stage_v12, Ideal.addf_def]
  rfl

end Cert.ReferenceIdeal.RefValue

end
-- ==== Proof.Claims.lean ====
/-
  The five claims.

  The three frames: the word-level kernel's and the idealized kernel's are the launch over @main's nine segments with
  every region's body run at a generic grid point (the generated frame certificates); the reference has no kernel, and
  its frame is its run with the result dropped.
  The idealization rewrote no operation, so there is nothing to preserve.
  The equivalence: at the extended reals the kernel's result array ends at the network of its launch arrays (the run with
  its result named, read back through the segments region by region), and the reference's ends at the same network of
  its own (its run, read one operation at a time); the two memories agree on the eight arguments. The two programs differ
  only in how the big products are summed — four blocks of 2048 accumulated from zero against one sum over 8192 — and
  in the zero row the small products add; neither needs the entries to be finite.
-/
import proofs.«101808_j25486335935216_1_alg».proof.Defs
import proofs.«101808_j25486335935216_1_alg».proof.Proof.Gen.Kernel.Frame
import proofs.«101808_j25486335935216_1_alg».proof.Proof.Gen.KernelIdeal.Frame
import proofs.«101808_j25486335935216_1_alg».proof.Proof.Gen.ReferenceIdeal.Run
import proofs.«101808_j25486335935216_1_alg».proof.Proof.Gen.ReferenceIdeal.Read
import proofs.«101808_j25486335935216_1_alg».proof.Proof.Gen.Pre_finite_inputs
import proofs.«101808_j25486335935216_1_alg».proof.Proof.NamedRun
import proofs.«101808_j25486335935216_1_alg».proof.Proof.Chain
import proofs.«101808_j25486335935216_1_alg».proof.Proof.RefValue

noncomputable section

open Idealize.ShloMosaic Idealize.ShloMosaic.TcCoe Idealize.SL.Sem

namespace Cert.Proof.GcnClaims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `Cert.Gcn.net` of the kernel's launch arrays. -/
theorem algebraic : Cert.algebraic_KernelIdeal_ReferenceIdeal := by
  intro m ρ m' ρ' _ hagree
  refine ⟨fun c => Cert.KernelIdeal.Gen.W9 m ρ c (Proc.devRef .tc Cert.KernelIdeal.main_v8),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v21_eq, Cert.ReferenceIdeal.RefValue.ref_eq, h0, h1, h2, h3, h4, h5, h6, h7]
  exact (Cert.KernelIdeal.Chain.result_eq m ρ c).symm

end Cert.Proof.GcnClaims

end
-- ==== Proof.lean ====
/-
  The proof of `Cert.Claim`: a two-layer graph convolution with a sigmoid head, computed by five kernels (three small
  products, two aggregations over the 8192×8192 adjacency accumulated in four column blocks), against the plain network.
  The modules: Spec (the network as one function of the eight arrays), Region0 … Region4 (what each kernel leaves in its
  output array, from the arrays it reads), Boundaries and Chain (the result array read back through @main's segments),
  NamedRun (the run with its result named), RefValue (the reference's run is the same network), Claims (the five claims),
  assembled here behind the witnesses of the programs' stated facts.
-/
import proofs.«101808_j25486335935216_1_alg».proof.Defs
import proofs.«101808_j25486335935216_1_alg».proof.Proof.Claims
import proofs.«101808_j25486335935216_1_alg».proof.Proof.Gen.Kernel
import proofs.«101808_j25486335935216_1_alg».proof.Proof.Gen.KernelIdeal
import proofs.«101808_j25486335935216_1_alg».proof.Proof.Gen.ReferenceIdeal
import proofs.«101808_j25486335935216_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GcnClaims.frame_k, GcnClaims.frame_ki, GcnClaims.frame_ri, GcnClaims.preserves, GcnClaims.algebraic⟩

end Cert.Proof

end
